-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S16x4096 : Shape := ⟨2, ![16, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S16x4096 : S_.BroadcastsInDim S16x4096 (![] : Fin 0 → Fin S16x4096.rank)
  reducesTo_S16x4096_S_d0_1 : S16x4096.ReducesTo [0, 1] S_

variable [Facts]

def fn {F : FTy → Type} [FloatOps F] (main_arg0 : FVec F S8192x4096 .f32) (main_arg1 : FVec F S16x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S16x4096 .f32 := Host.absf main_arg1
  let main_cst_0 : FVec F S_ .f32 := constant S_ .f32 0x7F800000#32
  let main_v5 : FVec F S16x4096 .f32 := broadcastInDim S16x4096 ![] bcast_S_S16x4096 main_cst_0
  let main_v6 : IVec S16x4096 1 := cmpf .olt main_v4 main_v5
  let main_c_1 : IVec S_ 1 := constantI S_ 1 1#1
  let main_v7 : IVec S_ 1 := (fun x v => Host.reduce IntOp.andi x v reducesTo_S16x4096_S_d0_1 h_S_) main_v6 main_c_1
  let main_v8 : IVec S_ 1 := andi main_v3 main_v7
  main_v8
-- ==== Kernel.lean ====
abbrev S8192x4096 : Shape := ⟨2, ![8192, 4096]⟩
abbrev S16x4096 : Shape := ⟨2, ![16, 4096]⟩
abbrev S256x4096 : Shape := ⟨2, ![256, 4096]⟩
abbrev S1x4096 : Shape := ⟨2, ![1, 4096]⟩

abbrev nBuf : Space → Nat
  | .hbm => 3
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S16x4096, .f32⟩
  | .hbm, ⟨2, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S16x4096, .f32⟩
  | .local _ .vmem, ⟨3, _⟩ => ⟨S256x4096, .f32⟩
  | .local _ .vmem, ⟨4, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x4096_S256x4096_0_0 : ∀ a, (![0, 0] : Fin 2 → Nat) a + S256x4096.size a ≤ S256x4096.size a
  h_S256x4096 : 0 < S256x4096.numel
  rotates_S256x4096_d1 : S256x4096.Rotates 1 none
  inb_S16x4096_S1x4096_0_0 : ∀ a, (![0, 0] : Fin 2 → Nat) a + S1x4096.size a ≤ S16x4096.size a
  h_S1x4096 : 0 < S1x4096.numel
  broadcasts_S1x4096_S256x4096 : S1x4096.Broadcasts S256x4096
  inb_S16x4096_S1x4096_1_0 : ∀ a, (![1, 0] : Fin 2 → Nat) a + S1x4096.size a ≤ S16x4096.size a
  inb_S16x4096_S1x4096_2_0 : ∀ a, (![2, 0] : Fin 2 → Nat) a + S1x4096.size a ≤ S16x4096.size a
  inb_S16x4096_S1x4096_3_0 : ∀ a, (![3, 0] : Fin 2 → Nat) a + S1x4096.size a ≤ S16x4096.size a
  inb_S16x4096_S1x4096_4_0 : ∀ a, (![4, 0] : Fin 2 → Nat) a + S1x4096.size a ≤ S16x4096.size a
  inb_S16x4096_S1x4096_5_0 : ∀ a, (![5, 0] : Fin 2 → Nat) a + S1x4096.size a ≤ S16x4096.size a
  inb_S16x4096_S1x4096_6_0 : ∀ a, (![6, 0] : Fin 2 → Nat) a + S1x4096.size a ≤ S16x4096.size a
  inb_S16x4096_S1x4096_7_0 : ∀ a, (![7, 0] : Fin 2 → Nat) a + S1x4096.size a ≤ S16x4096.size a
  inb_S16x4096_S1x4096_8_0 : ∀ a, (![8, 0] : Fin 2 → Nat) a + S1x4096.size a ≤ S16x4096.size a
  inb_S16x4096_S1x4096_9_0 : ∀ a, (![9, 0] : Fin 2 → Nat) a + S1x4096.size a ≤ S16x4096.size a
  inb_S16x4096_S1x4096_10_0 : ∀ a, (![10, 0] : Fin 2 → Nat) a + S1x4096.size a ≤ S16x4096.size a
  inb_S16x4096_S1x4096_11_0 : ∀ a, (![11, 0] : Fin 2 → Nat) a + S1x4096.size a ≤ S16x4096.size a
  inb_S16x4096_S1x4096_12_0 : ∀ a, (![12, 0] : Fin 2 → Nat) a + S1x4096.size a ≤ S16x4096.size a
  inb_S16x4096_S1x4096_13_0 : ∀ a, (![13, 0] : Fin 2 → Nat) a + S1x4096.size a ≤ S16x4096.size a
  inb_S16x4096_S1x4096_14_0 : ∀ a, (![14, 0] : Fin 2 → Nat) a + S1x4096.size a ≤ S16x4096.size a
  inb_S16x4096_S1x4096_15_0 : ∀ a, (![15, 0] : Fin 2 → Nat) a + S1x4096.size a ≤ S16x4096.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x4096.size a ≤ S16x4096.size a
  hwx0_1 : ∀ i : grid0.Coords, EltTy.bits .f32 = 32 ∨ (Rect.block (s := S16x4096) S16x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S8192x4096.size a
  hwx0_2 : ∀ i : grid0.Coords, EltTy.bits .f32 = 32 ∨ (Rect.block (s := S8192x4096) S256x4096.size (cc0_transform_2 i) (hinb0_2 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S16x4096 : Shape := ⟨2, ![16, 4096]⟩
abbrev S_ : Shape := ⟨0, ![]⟩
abbrev S1x4096 : Shape := ⟨2, ![1, 4096]⟩
abbrev S4096 : Shape := ⟨1, ![4096]⟩
abbrev S8192x4095 : Shape := ⟨2, ![8192, 4095]⟩
abbrev S8192x1 : Shape := ⟨2, ![8192, 1]⟩
abbrev S8192x4094 : Shape := ⟨2, ![8192, 4094]⟩
abbrev S8192x2 : Shape := ⟨2, ![8192, 2]⟩
abbrev S8192x4093 : Shape := ⟨2, ![8192, 4093]⟩
abbrev S8192x3 : Shape := ⟨2, ![8192, 3]⟩
abbrev S8192x4092 : Shape := ⟨2, ![8192, 4092]⟩
abbrev S8192x4 : Shape := ⟨2, ![8192, 4]⟩
abbrev S8192x4091 : Shape := ⟨2, ![8192, 4091]⟩
abbrev S8192x5 : Shape := ⟨2, ![8192, 5]⟩
abbrev S8192x4090 : Shape := ⟨2, ![8192, 4090]⟩
abbrev S8192x6 : Shape := ⟨2, ![8192, 6]⟩
abbrev S8192x4089 : Shape := ⟨2, ![8192, 4089]⟩
abbrev S8192x7 : Shape := ⟨2, ![8192, 7]⟩
abbrev S8192x4088 : Shape := ⟨2, ![8192, 4088]⟩
abbrev S8192x8 : Shape := ⟨2, ![8192, 8]⟩
abbrev S8192x4087 : Shape := ⟨2, ![8192, 4087]⟩
abbrev S8192x9 : Shape := ⟨2, ![8192, 9]⟩
abbrev S8192x4086 : Shape := ⟨2, ![8192, 4086]⟩
abbrev S8192x10 : Shape := ⟨2, ![8192, 10]⟩
abbrev S8192x4085 : Shape := ⟨2, ![8192, 4085]⟩
abbrev S8192x11 : Shape := ⟨2, ![8192, 11]⟩
abbrev S8192x4084 : Shape := ⟨2, ![8192, 4084]⟩
abbrev S8192x12 : Shape := ⟨2, ![8192, 12]⟩
abbrev S8192x4083 : Shape := ⟨2, ![8192, 4083]⟩
abbrev S8192x13 : Shape := ⟨2, ![8192, 13]⟩
abbrev S8192x4082 : Shape := ⟨2, ![8192, 4082]⟩
abbrev S8192x14 : Shape := ⟨2, ![8192, 14]⟩
abbrev S8192x4081 : Shape := ⟨2, ![8192, 4081]⟩
abbrev S8192x15 : Shape := ⟨2, ![8192, 15]⟩
abbrev S8192x4080 : Shape := ⟨2, ![8192, 4080]⟩
abbrev S8192x16 : Shape := ⟨2, ![8192, 16]⟩

abbrev nBuf : Space → Nat
  | .hbm => 149
  | .vmem => 0
  | .smem => 0
  | _ => 0

abbrev hbmTy0_0 (i : Nat) : BufTy := match i % 128 with
  | 0 => ⟨S8192x4096, .f32⟩
  | 1 => ⟨S16x4096, .f32⟩
  | 2 => ⟨S_, .f32⟩
  | 3 => ⟨S8192x4096, .f32⟩
  | 4 => ⟨S1x4096, .f32⟩
  | 5 => ⟨S4096, .f32⟩
  | 6 => ⟨S1x4096, .f32⟩
  | 7 => ⟨S8192x4095, .f32⟩
  | 8 => ⟨S8192x1, .f32⟩
  | 9 => ⟨S8192x4096, .f32⟩
  | 10 => ⟨S8192x4096, .f32⟩
  | 11 => ⟨S8192x4096, .f32⟩
  | 12 => ⟨S8192x4096, .f32⟩
  | 13 => ⟨S1x4096, .f32⟩
  | 14 => ⟨S4096, .f32⟩
  | 15 => ⟨S1x4096, .f32⟩
  | 16 => ⟨S8192x4094, .f32⟩
  | 17 => ⟨S8192x2, .f32⟩
  | 18 => ⟨S8192x4096, .f32⟩
  | 19 => ⟨S8192x4096, .f32⟩
  | 20 => ⟨S8192x4096, .f32⟩
  | 21 => ⟨S8192x4096, .f32⟩
  | 22 => ⟨S1x4096, .f32⟩
  | 23 => ⟨S4096, .f32⟩
  | 24 => ⟨S1x4096, .f32⟩
  | 25 => ⟨S8192x4093, .f32⟩
  | 26 => ⟨S8192x3, .f32⟩
  | 27 => ⟨S8192x4096, .f32⟩
  | 28 => ⟨S8192x4096, .f32⟩
  | 29 => ⟨S8192x4096, .f32⟩
  | 30 => ⟨S8192x4096, .f32⟩
  | 31 => ⟨S1x4096, .f32⟩
  | 32 => ⟨S4096, .f32⟩
  | 33 => ⟨S1x4096, .f32⟩
  | 34 => ⟨S8192x4092, .f32⟩
  | 35 => ⟨S8192x4, .f32⟩
  | 36 => ⟨S8192x4096, .f32⟩
  | 37 => ⟨S8192x4096, .f32⟩
  | 38 => ⟨S8192x4096, .f32⟩
  | 39 => ⟨S8192x4096, .f32⟩
  | 40 => ⟨S1x4096, .f32⟩
  | 41 => ⟨S4096, .f32⟩
  | 42 => ⟨S1x4096, .f32⟩
  | 43 => ⟨S8192x4091, .f32⟩
  | 44 => ⟨S8192x5, .f32⟩
  | 45 => ⟨S8192x4096, .f32⟩
  | 46 => ⟨S8192x4096, .f32⟩
  | 47 => ⟨S8192x4096, .f32⟩
  | 48 => ⟨S8192x4096, .f32⟩
  | 49 => ⟨S1x4096, .f32⟩
  | 50 => ⟨S4096, .f32⟩
  | 51 => ⟨S1x4096, .f32⟩
  | 52 => ⟨S8192x4090, .f32⟩
  | 53 => ⟨S8192x6, .f32⟩
  | 54 => ⟨S8192x4096, .f32⟩
  | 55 => ⟨S8192x4096, .f32⟩
  | 56 => ⟨S8192x4096, .f32⟩
  | 57 => ⟨S8192x4096, .f32⟩
  | 58 => ⟨S1x4096, .f32⟩
  | 59 => ⟨S4096, .f32⟩
  | 60 => ⟨S1x4096, .f32⟩
  | 61 => ⟨S8192x4089, .f32⟩
  | 62 => ⟨S8192x7, .f32⟩
  | 63 => ⟨S8192x4096, .f32⟩
  | 64 => ⟨S8192x4096, .f32⟩
  | 65 => ⟨S8192x4096, .f32⟩
  | 66 => ⟨S8192x4096, .f32⟩
  | 67 => ⟨S1x4096, .f32⟩
  | 68 => ⟨S4096, .f32⟩
  | 69 => ⟨S1x4096, .f32⟩
  | 70 => ⟨S8192x4088, .f32⟩
  | 71 => ⟨S8192x8, .f32⟩
  | 72 => ⟨S8192x4096, .f32⟩
  | 73 => ⟨S8192x4096, .f32⟩
  | 74 => ⟨S8192x4096, .f32⟩
  | 75 => ⟨S8192x4096, .f32⟩
  | 76 => ⟨S1x4096, .f32⟩
  | 77 => ⟨S4096, .f32⟩
  | 78 => ⟨S1x4096, .f32⟩
  | 79 => ⟨S8192x4087, .f32⟩
  | 80 => ⟨S8192x9, .f32⟩
  | 81 => ⟨S8192x4096, .f32⟩
  | 82 => ⟨S8192x4096, .f32⟩
  | 83 => ⟨S8192x4096, .f32⟩
  | 84 => ⟨S8192x4096, .f32⟩
  | 85 => ⟨S1x4096, .f32⟩
  | 86 => ⟨S4096, .f32⟩
  | 87 => ⟨S1x4096, .f32⟩
  | 88 => ⟨S8192x4086, .f32⟩
  | 89 => ⟨S8192x10, .f32⟩
  | 90 => ⟨S8192x4096, .f32⟩
  | 91 => ⟨S8192x4096, .f32⟩
  | 92 => ⟨S8192x4096, .f32⟩
  | 93 => ⟨S8192x4096, .f32⟩
  | 94 => ⟨S1x4096, .f32⟩
  | 95 => ⟨S4096, .f32⟩
  | 96 => ⟨S1x4096, .f32⟩
  | 97 => ⟨S8192x4085, .f32⟩
  | 98 => ⟨S8192x11, .f32⟩
  | 99 => ⟨S8192x4096, .f32⟩
  | 100 => ⟨S8192x4096, .f32⟩
  | 101 => ⟨S8192x4096, .f32⟩
  | 102 => ⟨S8192x4096, .f32⟩
  | 103 => ⟨S1x4096, .f32⟩
  | 104 => ⟨S4096, .f32⟩
  | 105 => ⟨S1x4096, .f32⟩
  | 106 => ⟨S8192x4084, .f32⟩
  | 107 => ⟨S8192x12, .f32⟩
  | 108 => ⟨S8192x4096, .f32⟩
  | 109 => ⟨S8192x4096, .f32⟩
  | 110 => ⟨S8192x4096, .f32⟩
  | 111 => ⟨S8192x4096, .f32⟩
  | 112 => ⟨S1x4096, .f32⟩
  | 113 => ⟨S4096, .f32⟩
  | 114 => ⟨S1x4096, .f32⟩
  | 115 => ⟨S8192x4083, .f32⟩
  | 116 => ⟨S8192x13, .f32⟩
  | 117 => ⟨S8192x4096, .f32⟩
  | 118 => ⟨S8192x4096, .f32⟩
  | 119 => ⟨S8192x4096, .f32⟩
  | 120 => ⟨S8192x4096, .f32⟩
  | 121 => ⟨S1x4096, .f32⟩
  | 122 => ⟨S4096, .f32⟩
  | 123 => ⟨S1x4096, .f32⟩
  | 124 => ⟨S8192x4082, .f32⟩
  | 125 => ⟨S8192x14, .f32⟩
  | 126 => ⟨S8192x4096, .f32⟩
  | 127 => ⟨S8192x4096, .f32⟩
  | _ => ⟨S8192x4096, .f32⟩

abbrev hbmTy0_1 (i : Nat) : BufTy := match i % 128 with
  | 0 => ⟨S8192x4096, .f32⟩
  | 1 => ⟨S8192x4096, .f32⟩
  | 2 => ⟨S1x4096, .f32⟩
  | 3 => ⟨S4096, .f32⟩
  | 4 => ⟨S1x4096, .f32⟩
  | 5 => ⟨S8192x4081, .f32⟩
  | 6 => ⟨S8192x15, .f32⟩
  | 7 => ⟨S8192x4096, .f32⟩
  | 8 => ⟨S8192x4096, .f32⟩
  | 9 => ⟨S8192x4096, .f32⟩
  | 10 => ⟨S8192x4096, .f32⟩
  | 11 => ⟨S1x4096, .f32⟩
  | 12 => ⟨S4096, .f32⟩
  | 13 => ⟨S1x4096, .f32⟩
  | 14 => ⟨S8192x4080, .f32⟩
  | 15 => ⟨S8192x16, .f32⟩
  | 16 => ⟨S8192x4096, .f32⟩
  | 17 => ⟨S8192x4096, .f32⟩
  | 18 => ⟨S8192x4096, .f32⟩
  | 19 => ⟨S8192x4096, .f32⟩
  | 20 => ⟨S8192x4096, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call1_v0 : Ref sig .tc := ⟨.hbm, 16, rfl⟩
abbrev main_call1_v1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call2_v0 : Ref sig .tc := ⟨.hbm, 25, rfl⟩
abbrev main_call2_v1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call3_v0 : Ref sig .tc := ⟨.hbm, 34, rfl⟩
abbrev main_call3_v1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call4_v0 : Ref sig .tc := ⟨.hbm, 43, rfl⟩
abbrev main_call4_v1 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_call5_v0 : Ref sig .tc := ⟨.hbm, 52, rfl⟩
abbrev main_call5_v1 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_call6_v0 : Ref sig .tc := ⟨.hbm, 61, rfl⟩
abbrev main_call6_v1 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_call7_v0 : Ref sig .tc := ⟨.hbm, 70, rfl⟩
abbrev main_call7_v1 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_call8_v0 : Ref sig .tc := ⟨.hbm, 79, rfl⟩
abbrev main_call8_v1 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_call9_v0 : Ref sig .tc := ⟨.hbm, 88, rfl⟩
abbrev main_call9_v1 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_call10_v0 : Ref sig .tc := ⟨.hbm, 97, rfl⟩
abbrev main_call10_v1 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_call11_v0 : Ref sig .tc := ⟨.hbm, 106, rfl⟩
abbrev main_call11_v1 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_call12_v0 : Ref sig .tc := ⟨.hbm, 115, rfl⟩
abbrev main_call12_v1 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_call13_v0 : Ref sig .tc := ⟨.hbm, 124, rfl⟩
abbrev main_call13_v1 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_call14_v0 : Ref sig .tc := ⟨.hbm, 133, rfl⟩
abbrev main_call14_v1 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_call15_v0 : Ref sig .tc := ⟨.hbm, 142, rfl⟩
abbrev main_call15_v1 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  slices_S16x4096_S1x4096_0_0 : S16x4096.Slices ![0, 0] S1x4096
  shapeCasts_S1x4096_S4096 : S1x4096.ShapeCasts S4096
  bcast_S4096_S1x4096_1 : S4096.BroadcastsInDim S1x4096 (![1] : Fin 1 → Fin S1x4096.rank)
  slices_S8192x4096_S8192x4095_0_1 : S8192x4096.Slices ![0, 1] S8192x4095
  slices_S8192x4096_S8192x1_0_0 : S8192x4096.Slices ![0, 0] S8192x1
  concatenates_S8192x4095_S8192x1_S8192x4096_d1 : Shape.Concatenates [S8192x4095, S8192x1] S8192x4096 1
  bcast_S1x4096_S8192x4096_0_1 : S1x4096.BroadcastsInDim S8192x4096 (![0, 1] : Fin 2 → Fin S8192x4096.rank)
  slices_S16x4096_S1x4096_1_0 : S16x4096.Slices ![1, 0] S1x4096
  slices_S8192x4096_S8192x4094_0_2 : S8192x4096.Slices ![0, 2] S8192x4094
  slices_S8192x4096_S8192x2_0_0 : S8192x4096.Slices ![0, 0] S8192x2
  concatenates_S8192x4094_S8192x2_S8192x4096_d1 : Shape.Concatenates [S8192x4094, S8192x2] S8192x4096 1
  slices_S16x4096_S1x4096_2_0 : S16x4096.Slices ![2, 0] S1x4096
  slices_S8192x4096_S8192x4093_0_3 : S8192x4096.Slices ![0, 3] S8192x4093
  slices_S8192x4096_S8192x3_0_0 : S8192x4096.Slices ![0, 0] S8192x3
  concatenates_S8192x4093_S8192x3_S8192x4096_d1 : Shape.Concatenates [S8192x4093, S8192x3] S8192x4096 1
  slices_S16x4096_S1x4096_3_0 : S16x4096.Slices ![3, 0] S1x4096
  slices_S8192x4096_S8192x4092_0_4 : S8192x4096.Slices ![0, 4] S8192x4092
  slices_S8192x4096_S8192x4_0_0 : S8192x4096.Slices ![0, 0] S8192x4
  concatenates_S8192x4092_S8192x4_S8192x4096_d1 : Shape.Concatenates [S8192x4092, S8192x4] S8192x4096 1
  slices_S16x4096_S1x4096_4_0 : S16x4096.Slices ![4, 0] S1x4096
  slices_S8192x4096_S8192x4091_0_5 : S8192x4096.Slices ![0, 5] S8192x4091
  slices_S8192x4096_S8192x5_0_0 : S8192x4096.Slices ![0, 0] S8192x5
  concatenates_S8192x4091_S8192x5_S8192x4096_d1 : Shape.Concatenates [S8192x4091, S8192x5] S8192x4096 1
  slices_S16x4096_S1x4096_5_0 : S16x4096.Slices ![5, 0] S1x4096
  slices_S8192x4096_S8192x4090_0_6 : S8192x4096.Slices ![0, 6] S8192x4090
  slices_S8192x4096_S8192x6_0_0 : S8192x4096.Slices ![0, 0] S8192x6
  concatenates_S8192x4090_S8192x6_S8192x4096_d1 : Shape.Concatenates [S8192x4090, S8192x6] S8192x4096 1
  slices_S16x4096_S1x4096_6_0 : S16x4096.Slices ![6, 0] S1x4096
  slices_S8192x4096_S8192x4089_0_7 : S8192x4096.Slices ![0, 7] S8192x4089
  slices_S8192x4096_S8192x7_0_0 : S8192x4096.Slices ![0, 0] S8192x7
  concatenates_S8192x4089_S8192x7_S8192x4096_d1 : Shape.Concatenates [S8192x4089, S8192x7] S8192x4096 1
  slices_S16x4096_S1x4096_7_0 : S16x4096.Slices ![7, 0] S1x4096
  slices_S8192x4096_S8192x4088_0_8 : S8192x4096.Slices ![0, 8] S8192x4088
  slices_S8192x4096_S8192x8_0_0 : S8192x4096.Slices ![0, 0] S8192x8
  concatenates_S8192x4088_S8192x8_S8192x4096_d1 : Shape.Concatenates [S8192x4088, S8192x8] S8192x4096 1
  slices_S16x4096_S1x4096_8_0 : S16x4096.Slices ![8, 0] S1x4096
  slices_S8192x4096_S8192x4087_0_9 : S8192x4096.Slices ![0, 9] S8192x4087
  slices_S8192x4096_S8192x9_0_0 : S8192x4096.Slices ![0, 0] S8192x9
  concatenates_S8192x4087_S8192x9_S8192x4096_d1 : Shape.Concatenates [S8192x4087, S8192x9] S8192x4096 1
  slices_S16x4096_S1x4096_9_0 : S16x4096.Slices ![9, 0] S1x4096
  slices_S8192x4096_S8192x4086_0_10 : S8192x4096.Slices ![0, 10] S8192x4086
  slices_S8192x4096_S8192x10_0_0 : S8192x4096.Slices ![0, 0] S8192x10
  concatenates_S8192x4086_S8192x10_S8192x4096_d1 : Shape.Concatenates [S8192x4086, S8192x10] S8192x4096 1
  slices_S16x4096_S1x4096_10_0 : S16x4096.Slices ![10, 0] S1x4096
  slices_S8192x4096_S8192x4085_0_11 : S8192x4096.Slices ![0, 11] S8192x4085
  slices_S8192x4096_S8192x11_0_0 : S8192x4096.Slices ![0, 0] S8192x11
  concatenates_S8192x4085_S8192x11_S8192x4096_d1 : Shape.Concatenates [S8192x4085, S8192x11] S8192x4096 1
  slices_S16x4096_S1x4096_11_0 : S16x4096.Slices ![11, 0] S1x4096
  slices_S8192x4096_S8192x4084_0_12 : S8192x4096.Slices ![0, 12] S8192x4084
  slices_S8192x4096_S8192x12_0_0 : S8192x4096.Slices ![0, 0] S8192x12
  concatenates_S8192x4084_S8192x12_S8192x4096_d1 : Shape.Concatenates [S8192x4084, S8192x12] S8192x4096 1
  slices_S16x4096_S1x4096_12_0 : S16x4096.Slices ![12, 0] S1x4096
  slices_S8192x4096_S8192x4083_0_13 : S8192x4096.Slices ![0, 13] S8192x4083
  slices_S8192x4096_S8192x13_0_0 : S8192x4096.Slices ![0, 0] S8192x13
  concatenates_S8192x4083_S8192x13_S8192x4096_d1 : Shape.Concatenates [S8192x4083, S8192x13] S8192x4096 1
  slices_S16x4096_S1x4096_13_0 : S16x4096.Slices ![13, 0] S1x4096
  slices_S8192x4096_S8192x4082_0_14 : S8192x4096.Slices ![0, 14] S8192x4082
  slices_S8192x4096_S8192x14_0_0 : S8192x4096.Slices ![0, 0] S8192x14
  concatenates_S8192x4082_S8192x14_S8192x4096_d1 : Shape.Concatenates [S8192x4082, S8192x14] S8192x4096 1
  slices_S16x4096_S1x4096_14_0 : S16x4096.Slices ![14, 0] S1x4096
  slices_S8192x4096_S8192x4081_0_15 : S8192x4096.Slices ![0, 15] S8192x4081
  slices_S8192x4096_S8192x15_0_0 : S8192x4096.Slices ![0, 0] S8192x15
  concatenates_S8192x4081_S8192x15_S8192x4096_d1 : Shape.Concatenates [S8192x4081, S8192x15] S8192x4096 1
  slices_S16x4096_S1x4096_15_0 : S16x4096.Slices ![15, 0] S1x4096
  slices_S8192x4096_S8192x4080_0_16 : S8192x4096.Slices ![0, 16] S8192x4080
  slices_S8192x4096_S8192x16_0_0 : S8192x4096.Slices ![0, 0] S8192x16
  concatenates_S8192x4080_S8192x16_S8192x4096_d1 : Shape.Concatenates [S8192x4080, S8192x16] S8192x4096 1

variable [Facts₀]

class Facts : Prop extends Facts₀ where

variable [Facts]
-- ==== Proof.LibLaneRoll.lean ====
/-
  Rolling the lanes of a matrix, read at an index.

  For a matrix of `R` rows and `n` lanes, "the entry `s` lanes ahead of lane `d`, around the end" is the entry at lane
  `(d + s) mod n` (`ahead d s`). Two texts spell that one reading:
  * a rotation of the lanes by `k = n - s` towards higher lanes (entry `d` of the result is entry `d - k` of the
    operand, around the end, and `d - k ≡ d + s` modulo `n`): `rotate_ahead`;
  * the lanes from `s` on, followed by the first `s` lanes (a two-piece concatenation of two slices): entry `d` of the
    result is entry `d + s` of the operand while `d + s < n`, and entry `d + s - n` after that: `roll_ahead`.
  Beside them, the two spellings of "row `k` of a matrix of weights, repeated down the rows": a one-row slice, flattened,
  put back as one row and broadcast (`rowDown_apply`), and a one-row rectangle of the matrix broadcast (`ldRow_apply`).
  Last, one step of a sum of taps as a host program takes it, `A + (row k of w, down the rows) · (x rolled s lanes)`
  (`hostTap`), which at the extended reals reads `A[p, q] + w[k, q] · x[p, (q + s) mod n]` (`hostTap_apply`).
-/
import Idealize.ShloMosaic.Lib.ValueIdx
import Idealize.ShloMosaic.Lib.Pipeline.Value
import Idealize.ShloMosaic.Lib.Pipeline.FrameBody
import Idealize.ShloMosaic.Lib.KernelVsHost

noncomputable section

namespace LaneRoll

open Idealize.ShloMosaic Idealize.ShloMosaic.ValueIdx

variable {α : Type}

/-- Lane `d + s` of an axis of `n` lanes, around the end. -/
def ahead {n : Nat} (d : Fin n) (s : Nat) : Fin n := ⟨(d.val + s) % n, Nat.mod_lt _ d.pos⟩

@[simp] theorem ahead_val {n : Nat} (d : Fin n) (s : Nat) : (ahead d s).val = (d.val + s) % n := rfl

/-- A rotation of the lanes by `k`, where `k + s = n`, reads `s` lanes ahead. -/
theorem rotate_ahead {R n : Nat} (k s : Nat) (hk : k + s = n) (hs : 0 < s) (hn : n < 2 ^ 32)
    (x : (⟨2, ![R, n]⟩ : Shape).Idx → α) (h : (⟨2, ![R, n]⟩ : Shape).Rotates 1 none) (p : Fin R) (q : Fin n) :
    dynamicRotate 1 (BitVec.ofNat 32 k) none x h (ix2 p q) = x (ix2 p (ahead q s)) := by
  refine dynamicRotate_apply 1 (BitVec.ofNat 32 k) x h (ix2 p q) (ix2 p (ahead q s)) (fun b => ?_)
  by_cases hb : b = 1
  · subst hb
    rw [if_pos rfl]
    show (q.val + s) % n = (q.val + n - (BitVec.ofNat 32 k).toNat % n) % n
    have hk32 : k < 2 ^ 32 := by omega
    rw [BitVec.toNat_ofNat, Nat.mod_eq_of_lt hk32, Nat.mod_eq_of_lt (by omega : k < n)]
    congr 1
    omega
  · rw [if_neg hb]
    have hb2 : b.val < 2 := b.isLt
    have hb0 : b = 0 := Fin.ext (by
      have hne : b.val ≠ 1 := fun e => hb (Fin.ext e)
      show b.val = 0
      omega)
    subst hb0
    rfl

/-- The lanes from `s` on followed by the first `s` lanes read `s` lanes ahead. -/
theorem roll_ahead {R n n₁ s : Nat} (hn : n₁ + s = n) (x : (⟨2, ![R, n]⟩ : Shape).Idx → α)
    (h₁ : (⟨2, ![R, n]⟩ : Shape).Slices ![0, s] ⟨2, ![R, n₁]⟩) (h₂ : (⟨2, ![R, n]⟩ : Shape).Slices ![0, 0] ⟨2, ![R, s]⟩)
    (hc : Shape.Concatenates [⟨2, ![R, n₁]⟩, ⟨2, ![R, s]⟩] ⟨2, ![R, n]⟩ 1) (p : Fin R) (q : Fin n) :
    concatenate ⟨2, ![R, n]⟩ 1 [⟨⟨2, ![R, n₁]⟩, extractStridedSlice ⟨2, ![R, n₁]⟩ ![0, s] x h₁⟩,
      ⟨⟨2, ![R, s]⟩, extractStridedSlice ⟨2, ![R, s]⟩ ![0, 0] x h₂⟩] hc (ix2 p q) = x (ix2 p (ahead q s)) := by
  by_cases hq : q.val < n₁
  · -- inside the first piece: lane `q` of it is lane `s + q` of the operand, and `q + s < n`
    rw [concatenate_pair_apply_left 1 _ _ hc (ix2 p q) rfl (ix2 p (⟨q.val, hq⟩ : Fin n₁))
      (fun b => by match b with | ⟨0, _⟩ => rfl | ⟨1, _⟩ => rfl)]
    refine extractStridedSlice_apply ![0, s] x h₁ _ _ (fun a => ?_)
    match a with
    | ⟨0, _⟩ => show p.val = 0 + p.val; omega
    | ⟨1, _⟩ =>
      show (q.val + s) % n = s + q.val
      rw [Nat.mod_eq_of_lt (by omega)]; omega
  · -- inside the second piece: lane `q - n₁` of it, which is lane `q - n₁` of the operand, and `n ≤ q + s < 2 n`
    have hq' : q.val - n₁ < s := by have := q.isLt; omega
    rw [concatenate_pair_apply_right 1 _ _ hc (ix2 p q) rfl rfl (ix2 p (⟨q.val - n₁, hq'⟩ : Fin s))
      (fun b hb => by match b with | ⟨0, _⟩ => rfl | ⟨1, _⟩ => exact absurd rfl hb)
      (by show q.val - n₁ + n₁ = q.val; omega)]
    refine extractStridedSlice_apply ![0, 0] x h₂ _ _ (fun a => ?_)
    match a with
    | ⟨0, _⟩ => show p.val = 0 + p.val; omega
    | ⟨1, _⟩ =>
      show (q.val + s) % n = 0 + (q.val - n₁)
      have hlt := q.isLt
      rw [Nat.mod_eq_sub_mod (by omega : n ≤ q.val + s), Nat.mod_eq_of_lt (by omega)]; omega

/-- Row `k` of a matrix of weights — sliced out as one row, flattened, put back as one row — broadcast down `R` rows
    reads the weight at row `k` and the same lane, on every row. -/
theorem rowDown_apply {K R n : Nat} (k : Nat) (hk : k < K) (w : (⟨2, ![K, n]⟩ : Shape).Idx → α)
    (h₁ : (⟨2, ![K, n]⟩ : Shape).Slices ![k, 0] ⟨2, ![1, n]⟩) (h₂ : (⟨2, ![1, n]⟩ : Shape).ShapeCasts ⟨1, ![n]⟩)
    (h₃ : (⟨1, ![n]⟩ : Shape).BroadcastsInDim ⟨2, ![1, n]⟩ ![1]) (h₄ : (⟨2, ![1, n]⟩ : Shape).BroadcastsInDim ⟨2, ![R, n]⟩ ![0, 1])
    (hn : n ≠ 1) (p : Fin R) (q : Fin n) :
    broadcastInDim ⟨2, ![R, n]⟩ ![0, 1] h₄ (broadcastInDim ⟨2, ![1, n]⟩ ![1] h₃
      (shapeCast ⟨1, ![n]⟩ (extractStridedSlice ⟨2, ![1, n]⟩ ![k, 0] w h₁) h₂)) (ix2 p q) = w (ix2 (⟨k, hk⟩ : Fin K) q) := by
  rw [broadcastInDim_apply ![0, 1] h₄ _ (ix2 p q) (ix2 (0 : Fin 1) q) (fun a => by
    match a with
    | ⟨0, _⟩ => show 0 = if (1 : Nat) = 1 then 0 else p.val; rw [if_pos rfl]
    | ⟨1, _⟩ => show q.val = if n = 1 then 0 else q.val; rw [if_neg hn])]
  rw [broadcastInDim_apply ![1] h₃ _ (ix2 (0 : Fin 1) q) (ix1 q) (fun a => by
    match a with
    | ⟨0, _⟩ => show q.val = if n = 1 then 0 else q.val; rw [if_neg hn])]
  rw [shapeCast_apply _ h₂ (ix1 q) (ix2 (0 : Fin 1) q) (by
    rw [Shape.rowMajor_val_two, Shape.rowMajor_val_one]; show 0 * n + q.val = q.val; omega)]
  refine extractStridedSlice_apply ![k, 0] w h₁ _ _ (fun a => ?_)
  match a with
  | ⟨0, _⟩ => show k = k + 0; omega
  | ⟨1, _⟩ => show q.val = 0 + q.val; omega

/-- Row `k` of a matrix of weights, read through a one-row rectangle and broadcast down `R` rows, reads the weight at row
    `k` and the same lane, on every row. -/
theorem ldRow_apply {Val : EltTy → Type} {e : EltTy} {K R n : Nat} (k : Nat) (hk : k < K) (w : (⟨2, ![K, n]⟩ : Shape).Idx → Val e)
    (inb : ∀ a, (![k, 0] : Fin 2 → Nat) a + (⟨2, ![1, n]⟩ : Shape).size a ≤ (⟨2, ![K, n]⟩ : Shape).size a)
    (hb : (⟨2, ![1, n]⟩ : Shape).Broadcasts ⟨2, ![R, n]⟩) (hn : n ≠ 1) (p : Fin R) (q : Fin n) :
    broadcastTo ⟨2, ![R, n]⟩ (View.ld w (Rect.unit (s := ⟨2, ![K, n]⟩) ![k, 0] (⟨2, ![1, n]⟩ : Shape).size inb)) hb (ix2 p q)
      = w (ix2 (⟨k, hk⟩ : Fin K) q) := by
  rw [broadcastTo_apply _ hb (ix2 p q) (ix2 (0 : Fin 1) q) (fun a => by
    match a with
    | ⟨0, _⟩ => show 0 = if (1 : Nat) = 1 then 0 else _; rw [if_pos rfl]
    | ⟨1, _⟩ => show q.val = if n = 1 then 0 else q.val; rw [if_neg hn])]
  show w _ = w _
  refine congrArg w (funext fun a => Fin.ext ?_)
  match a with
  | ⟨0, _⟩ => show k + 1 * 0 = k; omega
  | ⟨1, _⟩ => show 0 + 1 * q.val = q.val; omega

/-! ## One tap of a host program's sum -/

section HostTap

variable {F : FTy → Type} [FloatOps F]

/-- One tap added the way a host program spells it: to the array `A`, add row `k` of the weights (sliced out, flattened,
    put back as one row, broadcast down the rows) times `x` with its lanes from `s` on followed by its first `s` lanes. -/
def hostTap {K R n n₁ s : Nat} (k : Nat)
    (h₁ : (⟨2, ![K, n]⟩ : Shape).Slices ![k, 0] ⟨2, ![1, n]⟩) (h₂ : (⟨2, ![1, n]⟩ : Shape).ShapeCasts ⟨1, ![n]⟩)
    (h₃ : (⟨1, ![n]⟩ : Shape).BroadcastsInDim ⟨2, ![1, n]⟩ ![1]) (h₄ : (⟨2, ![1, n]⟩ : Shape).BroadcastsInDim ⟨2, ![R, n]⟩ ![0, 1])
    (hs₁ : (⟨2, ![R, n]⟩ : Shape).Slices ![0, s] ⟨2, ![R, n₁]⟩) (hs₂ : (⟨2, ![R, n]⟩ : Shape).Slices ![0, 0] ⟨2, ![R, s]⟩)
    (hc : Shape.Concatenates [⟨2, ![R, n₁]⟩, ⟨2, ![R, s]⟩] ⟨2, ![R, n]⟩ 1)
    (A x : FVec F ⟨2, ![R, n]⟩ .f32) (w : FVec F ⟨2, ![K, n]⟩ .f32) : FVec F ⟨2, ![R, n]⟩ .f32 :=
  addf A (mulf
    (broadcastInDim ⟨2, ![R, n]⟩ ![0, 1] h₄ (broadcastInDim ⟨2, ![1, n]⟩ ![1] h₃
      (shapeCast ⟨1, ![n]⟩ (extractStridedSlice ⟨2, ![1, n]⟩ ![k, 0] w h₁) h₂)))
    (concatenate ⟨2, ![R, n]⟩ 1 [⟨⟨2, ![R, n₁]⟩, extractStridedSlice ⟨2, ![R, n₁]⟩ ![0, s] x hs₁⟩,
      ⟨⟨2, ![R, s]⟩, extractStridedSlice ⟨2, ![R, s]⟩ ![0, 0] x hs₂⟩] hc))

/-- At the extended reals the tap adds, at row `p` and lane `q`, the weight `w[k, q]` times the entry `s` lanes ahead in row `p`. -/
theorem hostTap_apply {K R n n₁ s : Nat} (k : Nat) (hk : k < K) (hn : n₁ + s = n) (hn1 : n ≠ 1)
    (h₁ : (⟨2, ![K, n]⟩ : Shape).Slices ![k, 0] ⟨2, ![1, n]⟩) (h₂ : (⟨2, ![1, n]⟩ : Shape).ShapeCasts ⟨1, ![n]⟩)
    (h₃ : (⟨1, ![n]⟩ : Shape).BroadcastsInDim ⟨2, ![1, n]⟩ ![1]) (h₄ : (⟨2, ![1, n]⟩ : Shape).BroadcastsInDim ⟨2, ![R, n]⟩ ![0, 1])
    (hs₁ : (⟨2, ![R, n]⟩ : Shape).Slices ![0, s] ⟨2, ![R, n₁]⟩) (hs₂ : (⟨2, ![R, n]⟩ : Shape).Slices ![0, 0] ⟨2, ![R, s]⟩)
    (hc : Shape.Concatenates [⟨2, ![R, n₁]⟩, ⟨2, ![R, s]⟩] ⟨2, ![R, n]⟩ 1)
    (A x : FVec Ideal ⟨2, ![R, n]⟩ .f32) (w : FVec Ideal ⟨2, ![K, n]⟩ .f32) (p : Fin R) (q : Fin n) :
    hostTap k h₁ h₂ h₃ h₄ hs₁ hs₂ hc A x w (ix2 p q) = A (ix2 p q) + w (ix2 (⟨k, hk⟩ : Fin K) q) * x (ix2 p (ahead q s)) := by
  unfold hostTap
  rw [addf_apply, mulf_apply, rowDown_apply k hk w h₁ h₂ h₃ h₄ hn1 p q, roll_ahead hn x hs₁ hs₂ hc p q]

end HostTap

end LaneRoll

end
-- ==== Proof.Spec.lean ====
/-
  What both programs compute, as one function of the two argument arrays, index by index, on the extended reals.

  `x` is a matrix of `R` rows and 4096 lanes, `w` a matrix of 16 rows of weights over the same lanes. The result at row
  `b`, lane `d` is

      x[b, d] · (1 + Σ_{k = 0..15} w[k, d] · x[b, (d + k + 1) mod 4096])

  with the sum taken in the order both programs take it: starting from `1`, tap `0` is added first and tap `15` last,
  each tap the weight times the entry `k + 1` lanes ahead (around the end of the row). The `1` is kept as the word both
  programs print for it; nothing in the proof needs its value. The value at row `b` reads row `b` of `x` only
  (`rowValue_congr`): this is why a block of rows of `x` computes the same rows of the result.
-/
import Idealize.ShloMosaic.Lib.ValueIdx
import proofs.«174131_j47957604827151_1_alg».proof.Proof.LibLaneRoll

noncomputable section

namespace QuadEnhance

open Idealize.ShloMosaic Idealize.ShloMosaic.ValueIdx LaneRoll

/-- The matrix of weights: 16 taps over 4096 lanes. -/
abbrev WS : Shape := ⟨2, ![16, 4096]⟩

/-- The word both programs print for the constant the sum starts from. -/
def start : EReal := Ideal.ofBits .f32 0x3F800000#32

/-- Tap `k` at row `b`, lane `d`: the weight `w[k, d]` times the entry `s` lanes ahead of `d` in row `b` (`s = k + 1`). -/
def tap {R : Nat} (x : (⟨2, ![R, 4096]⟩ : Shape).Idx → EReal) (w : WS.Idx → EReal) (b : Fin R) (d : Fin 4096) (k : Fin 16) (s : Nat) : EReal :=
  w (ix2 k d) * x (ix2 b (ahead d s))

/-- The result at row `b`, lane `d`: the entry times the constant plus the sixteen taps, added in order. -/
def rowValue {R : Nat} (x : (⟨2, ![R, 4096]⟩ : Shape).Idx → EReal) (w : WS.Idx → EReal) (b : Fin R) (d : Fin 4096) : EReal :=
  x (ix2 b d) * (start + tap x w b d 0 1 + tap x w b d 1 2 + tap x w b d 2 3 + tap x w b d 3 4 + tap x w b d 4 5
    + tap x w b d 5 6 + tap x w b d 6 7 + tap x w b d 7 8 + tap x w b d 8 9 + tap x w b d 9 10 + tap x w b d 10 11
    + tap x w b d 11 12 + tap x w b d 12 13 + tap x w b d 13 14 + tap x w b d 14 15 + tap x w b d 15 16)

/-- The result array. -/
def enhanced {R : Nat} (x : (⟨2, ![R, 4096]⟩ : Shape).Idx → EReal) (w : WS.Idx → EReal) : (⟨2, ![R, 4096]⟩ : Shape).Idx → EReal :=
  fun i => rowValue x w (i 0) (i 1)

theorem enhanced_apply {R : Nat} (x : (⟨2, ![R, 4096]⟩ : Shape).Idx → EReal) (w : WS.Idx → EReal) (b : Fin R) (d : Fin 4096) :
    enhanced x w (ix2 b d) = rowValue x w b d := rfl

/-- The value at row `b` reads only row `b` of the matrix: two matrices that agree on a row give that row the same value. -/
theorem rowValue_congr {R R' : Nat} (x : (⟨2, ![R, 4096]⟩ : Shape).Idx → EReal) (x' : (⟨2, ![R', 4096]⟩ : Shape).Idx → EReal)
    (w : WS.Idx → EReal) (b : Fin R) (b' : Fin R') (h : ∀ d : Fin 4096, x (ix2 b d) = x' (ix2 b' d)) (d : Fin 4096) :
    rowValue x w b d = rowValue x' w b' d := by
  simp only [rowValue, tap, h]

end QuadEnhance

end
-- ==== Proof.KernelValue.lean ====
/-
  The idealized kernel's result array, index by index.

  The kernel runs over 32 grid points; point `t` takes rows `256 t … 256 t + 255` of `x` (all 4096 lanes) and the whole matrix
  of weights, and writes the same rows of the result. Its body keeps the block `xv`, starts from the constant, and for
  `k = 0 … 15` adds `w[k, ·] · rot_k(xv)`, where `rot_k` rotates the lanes by `4096 − (k + 1)`: entry `d` of `rot_k(xv)`
  is entry `d − (4096 − (k + 1)) ≡ d + k + 1` (mod 4096) of the row. It then stores `xv` times that sum. So at row `p` of the
  block and lane `q` the stored value is `rowValue` of the block (`body_apply`); `rowValue` at a row reads that row only, so
  it is `rowValue` of the whole array at row `256 t + p` (`flushed_eq`); the 32 blocks cover the array (`covered`), which
  therefore ends holding `enhanced x w` (`final`).
-/
import proofs.«174131_j47957604827151_1_alg».proof.Proof.Gen.KernelIdeal.Value
import proofs.«174131_j47957604827151_1_alg».proof.Proof.Spec
import proofs.«174131_j47957604827151_1_alg».proof.Proof.LibLaneRoll

set_option maxRecDepth 16384

noncomputable section

namespace Cert.KernelIdeal.QuadValue

open Cert.KernelIdeal Cert.KernelIdeal.Gen Idealize.ShloMosaic Idealize.ShloMosaic.TcCoe Idealize.SL.Sem
open Idealize.ShloMosaic.ValueIdx LaneRoll QuadEnhance
open Idealize.ShloMosaic.Pipeline (Dat)

theorem hz : (![0, 0] : Fin 2 → Nat) = fun _ => 0 := funext fun a => by fin_cases a <;> rfl

/-- The body's one store, at row `p` and lane `q` of the block: the entry times the constant plus the sixteen taps. -/
theorem body_apply (x0 : Vec Ideal S256x4096 .f32) (x1 : Vec Ideal S16x4096 .f32) (p : Fin 256) (q : Fin 4096) :
    out0_2 x0 x1 (ix2 p q) = rowValue x0 x1 p q := by
  unfold out0_2
  rw [View.canon_unit_zero hz]
  simp only [View.ld_unit_zero (S := S256x4096) hz]
  unfold k0_pay1 k0_pay5 k0_pay2 k0_pay3 k0_pay4 k0_pay6
  dsimp only
  simp only [mulf_apply, addf_apply, broadcast_apply]
  rw [rotate_ahead 4095 1 rfl (by decide) (by decide), rotate_ahead 4094 2 rfl (by decide) (by decide),
    rotate_ahead 4093 3 rfl (by decide) (by decide), rotate_ahead 4092 4 rfl (by decide) (by decide),
    rotate_ahead 4091 5 rfl (by decide) (by decide), rotate_ahead 4090 6 rfl (by decide) (by decide),
    rotate_ahead 4089 7 rfl (by decide) (by decide), rotate_ahead 4088 8 rfl (by decide) (by decide),
    rotate_ahead 4087 9 rfl (by decide) (by decide), rotate_ahead 4086 10 rfl (by decide) (by decide),
    rotate_ahead 4085 11 rfl (by decide) (by decide), rotate_ahead 4084 12 rfl (by decide) (by decide),
    rotate_ahead 4083 13 rfl (by decide) (by decide), rotate_ahead 4082 14 rfl (by decide) (by decide),
    rotate_ahead 4081 15 rfl (by decide) (by decide), rotate_ahead 4080 16 rfl (by decide) (by decide)]
  rw [ldRow_apply 0 (by decide) x1 _ _ (by decide), ldRow_apply 1 (by decide) x1 _ _ (by decide),
    ldRow_apply 2 (by decide) x1 _ _ (by decide), ldRow_apply 3 (by decide) x1 _ _ (by decide),
    ldRow_apply 4 (by decide) x1 _ _ (by decide), ldRow_apply 5 (by decide) x1 _ _ (by decide),
    ldRow_apply 6 (by decide) x1 _ _ (by decide), ldRow_apply 7 (by decide) x1 _ _ (by decide),
    ldRow_apply 8 (by decide) x1 _ _ (by decide), ldRow_apply 9 (by decide) x1 _ _ (by decide),
    ldRow_apply 10 (by decide) x1 _ _ (by decide), ldRow_apply 11 (by decide) x1 _ _ (by decide),
    ldRow_apply 12 (by decide) x1 _ _ (by decide), ldRow_apply 13 (by decide) x1 _ _ (by decide),
    ldRow_apply 14 (by decide) x1 _ _ (by decide), ldRow_apply 15 (by decide) x1 _ _ (by decide)]
  rfl

variable (m : (ℓ : Loc nD τ sig) → Buf (Elt Ideal) ℓ) (ρ : Dev nD → PrngReg)

/-- The array of inputs as the region finds it. -/
abbrev xarr (c : Dev nD) : Vec Ideal S8192x4096 .f32 := V m c main_arg0
/-- The array of weights as the region finds it. -/
abbrev warr (c : Dev nD) : Vec Ideal S16x4096 .f32 := V m c main_arg1

/-- The printed index maps over the 32 points: point `t` takes row block `t` of `x` and of the result, all lanes, and the
    whole matrix of weights. -/
theorem idx_facts : ∀ t : Fin cfg0.N, t.val < 32
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `256 t + p` of the array, for a point `t` and a row `p` of its block. -/
def rowOf (t : Fin cfg0.N) (p : Fin 256) : Fin 8192 := ⟨t.val * 256 + p.val, by have := (idx_facts t).1; have := p.isLt; omega⟩

/-- Row `p` of point `t`'s block of `x` is row `256 t + p` of the array. -/
theorem xblk_apply (c : Dev nD) (t : Fin cfg0.N) (p : Fin 256) (d : Fin 4096) :
    (iblk m c 0 t : Vec Ideal S256x4096 .f32) (ix2 p d) = xarr m c (ix2 (rowOf t p) d) := by
  obtain ⟨-, e00, e01, -, -, -, -⟩ := idx_facts t
  show V m c main_arg0 (((cfg0.win 0).blk t).view.emb (ix2 p d)) = V m c main_arg0 (ix2 (rowOf t p) d)
  refine congrArg (V m c main_arg0) (funext fun a => Fin.ext ?_)
  match a with
  | ⟨0, _⟩ => show win0_0.index t (0 : Fin 2) * 256 + 1 * p.val = t.val * 256 + p.val; omega
  | ⟨1, _⟩ => show win0_0.index t (1 : Fin 2) * 4096 + 1 * d.val = d.val; omega

/-- Every point's block of the weights is the whole matrix of weights. -/
theorem wblk_eq (c : Dev nD) (t : Fin cfg0.N) : (iblk m c 1 t : Vec Ideal S16x4096 .f32) = warr m c := by
  obtain ⟨-, -, -, e10, e11, -, -⟩ := idx_facts t
  funext y
  show V m c main_arg1 (((cfg0.win 1).blk t).view.emb y) = V m c main_arg1 y
  refine congrArg (V m c main_arg1) (funext fun a => Fin.ext ?_)
  match a with
  | ⟨0, _⟩ => show win0_1.index t (0 : Fin 2) * 16 + 1 * (y 0).val = (y 0).val; omega
  | ⟨1, _⟩ => show win0_1.index t (1 : Fin 2) * 4096 + 1 * (y 1).val = (y 1).val; omega

/-- What point `t` writes back is block `t` of `enhanced x w`. -/
theorem flushed_eq (c : Dev nD) (t : Fin cfg0.N) :
    (dats m 0 c).flushed 2 t = ((cfg0.win 2).blk t).view.read (Elt Ideal) (enhanced (xarr m c) (warr m c)) := by
  rw [Value.flushed2]
  obtain ⟨-, -, -, -, -, e20, e21⟩ := idx_facts t
  funext j
  obtain ⟨p, q, rfl⟩ : ∃ (p : Fin 256) (q : Fin 4096), j = ix2 p q := ⟨j 0, j 1, eq_ix2 j⟩
  show out0_2 (iblk m c 0 t) (iblk m c 1 t) (ix2 p q)
    = enhanced (xarr m c) (warr m c) (((cfg0.win 2).blk t).view.emb (ix2 p q))
  have he : ((cfg0.win 2).blk t).view.emb (ix2 p q) = ix2 (rowOf t p) q := by
    funext a; apply Fin.ext
    match a with
    | ⟨0, _⟩ => show win0_2.index t (0 : Fin 2) * 256 + 1 * p.val = t.val * 256 + p.val; omega
    | ⟨1, _⟩ => show win0_2.index t (1 : Fin 2) * 4096 + 1 * q.val = q.val; omega
  rw [he, enhanced_apply]
  refine (body_apply (iblk m c 0 t) (iblk m c 1 t) p q).trans ?_
  rw [wblk_eq m c t]
  exact rowValue_congr _ _ _ p (rowOf t p) (fun d => xblk_apply m c t p d) q

/-- An index of the array is in point `t`'s block iff each coordinate is in the block's range on its axis. -/
theorem mem_blk (t : Fin cfg0.N) (i : S8192x4096.Idx) :
    i ∈ ((cfg0.win 2).blk t).view.set ↔ ∀ a : Fin 2, win0_2.index t a * S256x4096.size a ≤ (i a).val ∧ (i a).val < win0_2.index t a * S256x4096.size a + S256x4096.size a := by
  show i ∈ ((View.whole main_v0).slice (win0_2.rect t)).set ↔ _
  rw [View.set_slice_whole, Rect.mem_set_unit]
  exact Iff.rfl

/-- Every index of the array is in some point's block: row `r` is in the block of point `r / 256`. -/
theorem covered (i : S8192x4096.Idx) : ∃ t : Fin cfg0.N, (cfg0.win 2).flush t = true ∧ i ∈ ((cfg0.win 2).blk t).view.set := by
  have hi0 : (i 0).val < 8192 := (i 0).isLt
  have hi1 : (i 1).val < 4096 := (i 1).isLt
  have hN : cfg0.N = 32 := N_0
  refine ⟨⟨(i 0).val / 256, by omega⟩, flush0_2 _, ?_⟩
  obtain ⟨-, -, -, -, -, e20, e21⟩ := idx_facts ⟨(i 0).val / 256, by omega⟩
  rw [mem_blk]
  intro a
  match a with
  | ⟨0, _⟩ =>
    show win0_2.index ⟨(i 0).val / 256, _⟩ (0 : Fin 2) * 256 ≤ (i 0).val ∧ (i 0).val < win0_2.index ⟨(i 0).val / 256, _⟩ (0 : Fin 2) * 256 + 256
    rw [e20]; show (i 0).val / 256 * 256 ≤ (i 0).val ∧ (i 0).val < (i 0).val / 256 * 256 + 256; omega
  | ⟨1, _⟩ =>
    show win0_2.index ⟨(i 0).val / 256, _⟩ (1 : Fin 2) * 4096 ≤ (i 1).val ∧ (i 1).val < win0_2.index ⟨(i 0).val / 256, _⟩ (1 : Fin 2) * 4096 + 4096
    rw [e21]; omega

/-- The result array after the run. -/
theorem final (c : Dev nD) : (dats m 0 c).arrAt 2 cfg0.N = enhanced (xarr m c) (warr m c) :=
  (dats m 0 c).arrAt_eq_of_cover 2 (enhanced (xarr m c) (warr m c)) (fun t _ => flushed_eq m c t) covered

/-- The idealized kernel's run, read: the result array at `enhanced` of the arguments, the arguments unchanged. -/
theorem run : θ_run defs (onTc (τ := τ) (main (F := Ideal))) ⟨m, fun _ => 0, ρ⟩ fun r => ∀ c : Dev nD,
      r.2.mem ((c : Thread nD τ).loc main_v0)
        = enhanced (m ((c : Thread nD τ).loc main_arg0) : Vec Ideal S8192x4096 .f32) (m ((c : Thread nD τ).loc main_arg1) : Vec Ideal S16x4096 .f32)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.QuadValue

end
-- ==== Proof.RefBase.lean ====
/-
  The reference's run, its ends.

  The reference is a straight line of 147 host operations: two that make the constant array the sum starts from, sixteen
  groups of nine that each add one tap to the running sum, and one that multiplies the input by the sum. This module
  holds what the groups share — the types of the two argument arrays, the constant array `acc0` — and the two ends: the
  head (the two operations before the first tap) and the tail (the last product), each read from any contents `V` of the
  device's buffers: which buffer it writes, with which value, and that it leaves the two arguments as they were.
-/
import proofs.«174131_j47957604827151_1_alg».proof.Proof.Gen.ReferenceIdeal
import proofs.«174131_j47957604827151_1_alg».proof.Proof.LibLaneRoll
import Idealize.ShloMosaic.Lib.StableHlo.Run
import Idealize.ShloMosaic.Lib.Pipeline.Frame

noncomputable section

namespace Cert.ReferenceIdeal.QuadRun

open Cert.ReferenceIdeal Cert.ReferenceIdeal.Gen Idealize.ShloMosaic Idealize.ShloMosaic.TcCoe Idealize.SL.Sem Idealize.ShloMosaic.StableHlo
open LaneRoll

variable {F : FTy → Type} [FloatOps F]

/-- The type of the input array's contents (8192 rows of 4096 lanes). -/
abbrev XC (F : FTy → Type) : Type := (⟨S8192x4096, .f32⟩ : BufTy).Contents (Elt F)
/-- The type of the weights' contents (16 taps over 4096 lanes). -/
abbrev WC (F : FTy → Type) : Type := (⟨S16x4096, .f32⟩ : BufTy).Contents (Elt F)

/-- What an operation must be for the run's rule: its buffers are TensorCore buffers and it allocates nothing. -/
abbrev Fine (op : HloOp τ sig (Elt F)) : Prop := op.bufs ⊆ tcRefs τ sig ∧ op.fresh = ∅

/-- The sum before any tap: the constant, everywhere (it reads neither argument; they are parameters for uniformity with
    the later sums). -/
def acc0 (x : XC F) (w : WC F) : XC F :=
  broadcastInDim S8192x4096 ![] bcast_S_S8192x4096 (constant S_ .f32 0x3F800000#32)

/-- The two operations before the first tap: the constant, and its broadcast to the array's shape. -/
abbrev opsHead : List (HloOp τ sig (Elt F)) :=
  [
    nullary main_cst (constant S_ .f32 0x3F800000#32),
    unary main_cst main_v0 (broadcastInDim S8192x4096 ![] bcast_S_S8192x4096 : (⟨S_, .f32⟩ : BufTy).Contents (Elt F) → (⟨S8192x4096, .f32⟩ : BufTy).Contents (Elt F)) ]

/-- The last operation: the input times the sum. -/
abbrev opsTail : List (HloOp τ sig (Elt F)) :=
  [
    binary main_arg0 main_v112 main_v113 (mulf : (⟨S8192x4096, .f32⟩ : BufTy).Contents (Elt F) → (⟨S8192x4096, .f32⟩ : BufTy).Contents (Elt F) → (⟨S8192x4096, .f32⟩ : BufTy).Contents (Elt F)) ]

theorem head_fine : (opsHead : List (HloOp τ sig (Elt F))).Forall Fine :=
  ⟨⟨nullary_bufs_sub .., rfl⟩, ⟨unary_bufs_sub .., rfl⟩⟩

theorem tail_fine : (opsTail : List (HloOp τ sig (Elt F))).Forall Fine :=
  ⟨binary_bufs_sub .., rfl⟩

/-- After the head, the sum's buffer holds the constant array and the arguments are as they were. -/
theorem head_step (V₀ : Valuation τ sig (Elt F)) :
    after opsHead V₀ (Proc.devRef .tc main_v0) = acc0 (V₀ (Proc.devRef .tc main_arg0)) (V₀ (Proc.devRef .tc main_arg1))
    ∧ after opsHead V₀ (Proc.devRef .tc main_arg0) = V₀ (Proc.devRef .tc main_arg0)
    ∧ after opsHead V₀ (Proc.devRef .tc main_arg1) = V₀ (Proc.devRef .tc main_arg1) := by
  refine ⟨?_, ?_, ?_⟩ <;> after_results_simp <;> rfl

/-- The tail, from any contents: the result buffer holds the input times what the last sum's buffer held, and the
    arguments are as they were. -/
theorem tail_after (V : Valuation τ sig (Elt F)) :
    after opsTail V (Proc.devRef .tc main_v113) = mulf (V (Proc.devRef .tc main_arg0) : XC F) (V (Proc.devRef .tc main_v112))
    ∧ after opsTail V (Proc.devRef .tc main_arg0) = V (Proc.devRef .tc main_arg0)
    ∧ after opsTail V (Proc.devRef .tc main_arg1) = V (Proc.devRef .tc main_arg1) := by
  refine ⟨?_, ?_, ?_⟩ <;> after_results_simp <;> rfl

end Cert.ReferenceIdeal.QuadRun

end
-- ==== Proof.RefTaps.lean ====
/-
  The reference's sixteen taps, one group of nine host operations each.

  Tap `k` (`k = 0 … 15`) slices row `k` out of the weights, flattens it, puts it back as one row and broadcasts it down the
  8192 rows; rolls the input `k + 1` lanes (its lanes from `k + 1` on, followed by its first `k + 1` lanes); multiplies the
  two; and adds the product to the running sum. For each tap: the nine operations (`opsTap‹k›`), that each is fine for
  the run's rule, what they leave from any contents of the buffers (`tap‹k›_after`: the new sum's buffer at `hostTap` of the
  old sum and the two arguments; the arguments untouched), the running sum as a function of the two arguments
  (`acc‹k+1›`), the step of the invariant "the sum's buffer holds `acc` of the arguments as they were at the start, and
  the arguments are as they were" (`upTo‹k+1›`), and the sum read at an index on the extended reals (`acc‹k+1›_apply`: the
  sum before, plus the weight `w[k, d]` times the entry `k + 1` lanes ahead in the row).
-/
import proofs.«174131_j47957604827151_1_alg».proof.Proof.RefBase
import proofs.«174131_j47957604827151_1_alg».proof.Proof.Spec

noncomputable section

namespace Cert.ReferenceIdeal.QuadRun

open Cert.ReferenceIdeal Cert.ReferenceIdeal.Gen Idealize.ShloMosaic Idealize.ShloMosaic.TcCoe Idealize.SL.Sem Idealize.ShloMosaic.StableHlo
open Idealize.ShloMosaic.ValueIdx LaneRoll

variable {F : FTy → Type} [FloatOps F]

/-! ## Tap 0: row 0 of the weights times the input rolled 1 lanes -/

/-- The nine operations of tap 0. -/
abbrev opsTap0 : List (HloOp τ sig (Elt F)) :=
  [
    unary main_arg1 main_v1 ((extractStridedSlice S1x4096 ![0, 0] · slices_S16x4096_S1x4096_0_0) : (⟨S16x4096, .f32⟩ : BufTy).Contents (Elt F) → (⟨S1x4096, .f32⟩ : BufTy).Contents (Elt F)),
    reshape main_v1 main_v2 rfl shapeCasts_S1x4096_S4096,
    unary main_v2 main_v3 (broadcastInDim S1x4096 ![1] bcast_S4096_S1x4096_1 : (⟨S4096, .f32⟩ : BufTy).Contents (Elt F) → (⟨S1x4096, .f32⟩ : BufTy).Contents (Elt F)),
    TRef.unary (TRef.of (T := ⟨S8192x4096, .f32⟩) main_arg0) (TRef.of (T := ⟨S8192x4095, .f32⟩) main_call0_v0) (extractStridedSlice S8192x4095 ![0, 1] · slices_S8192x4096_S8192x4095_0_1),
    TRef.unary (TRef.of (T := ⟨S8192x4096, .f32⟩) main_arg0) (TRef.of (T := ⟨S8192x1, .f32⟩) main_call0_v1) (extractStridedSlice S8192x1 ![0, 0] · slices_S8192x4096_S8192x1_0_0),
    TRef.binary (TRef.of (T := ⟨S8192x4095, .f32⟩) main_call0_v0) (TRef.of (T := ⟨S8192x1, .f32⟩) main_call0_v1) (TRef.of (T := ⟨S8192x4096, .f32⟩) main_v4) (fun a b => concatenate S8192x4096 1 [⟨S8192x4095, a⟩, ⟨S8192x1, b⟩] concatenates_S8192x4095_S8192x1_S8192x4096_d1),
    unary main_v3 main_v5 (broadcastInDim S8192x4096 ![0, 1] bcast_S1x4096_S8192x4096_0_1 : (⟨S1x4096, .f32⟩ : BufTy).Contents (Elt F) → (⟨S8192x4096, .f32⟩ : BufTy).Contents (Elt F)),
    binary main_v5 main_v4 main_v6 (mulf : (⟨S8192x4096, .f32⟩ : BufTy).Contents (Elt F) → (⟨S8192x4096, .f32⟩ : BufTy).Contents (Elt F) → (⟨S8192x4096, .f32⟩ : BufTy).Contents (Elt F)),
    binary main_v0 main_v6 main_v7 (addf : (⟨S8192x4096, .f32⟩ : BufTy).Contents (Elt F) → (⟨S8192x4096, .f32⟩ : BufTy).Contents (Elt F) → (⟨S8192x4096, .f32⟩ : BufTy).Contents (Elt F)) ]

theorem tap0_fine : (opsTap0 : List (HloOp τ sig (Elt F))).Forall Fine :=
  ⟨⟨unary_bufs_sub .., rfl⟩, ⟨reshape_bufs_sub .., rfl⟩, ⟨unary_bufs_sub .., rfl⟩, ⟨unary_bufs_sub .., rfl⟩, ⟨unary_bufs_sub .., rfl⟩,
    ⟨binary_bufs_sub .., rfl⟩, ⟨unary_bufs_sub .., rfl⟩, ⟨binary_bufs_sub .., rfl⟩, ⟨binary_bufs_sub .., rfl⟩⟩

/-- The sum after taps 0 … 0, as a function of the two arguments. -/
def acc1 (x : XC F) (w : WC F) : XC F :=
  hostTap 0 slices_S16x4096_S1x4096_0_0 shapeCasts_S1x4096_S4096 bcast_S4096_S1x4096_1 bcast_S1x4096_S8192x4096_0_1
      slices_S8192x4096_S8192x4095_0_1 slices_S8192x4096_S8192x1_0_0 concatenates_S8192x4095_S8192x1_S8192x4096_d1
    (acc0 x w) x w

/-- Tap 0 from any contents `V`: the new sum's buffer holds the old sum's plus row 0 of the weights times the input
    rolled 1 lanes, and the two arguments are untouched. -/
theorem tap0_after (V : Valuation τ sig (Elt F)) :
    after opsTap0 V (Proc.devRef .tc main_v7)
      = hostTap 0 slices_S16x4096_S1x4096_0_0 shapeCasts_S1x4096_S4096 bcast_S4096_S1x4096_1 bcast_S1x4096_S8192x4096_0_1
      slices_S8192x4096_S8192x4095_0_1 slices_S8192x4096_S8192x1_0_0 concatenates_S8192x4095_S8192x1_S8192x4096_d1
          (V (Proc.devRef .tc main_v0)) (V (Proc.devRef .tc main_arg0)) (V (Proc.devRef .tc main_arg1))
    ∧ after opsTap0 V (Proc.devRef .tc main_arg0) = V (Proc.devRef .tc main_arg0)
    ∧ after opsTap0 V (Proc.devRef .tc main_arg1) = V (Proc.devRef .tc main_arg1) := by
  refine ⟨?_, ?_, ?_⟩ <;> after_results_simp <;> rfl

/-- The invariant through tap 0: if `V` holds the sum so far of the arguments as they were at the start (`V₀`) and those
    arguments, the contents after tap 0 hold the next sum and the arguments still. -/
theorem upTo1 (V₀ V : Valuation τ sig (Elt F))
    (h : V (Proc.devRef .tc main_v0) = acc0 (V₀ (Proc.devRef .tc main_arg0)) (V₀ (Proc.devRef .tc main_arg1))
      ∧ V (Proc.devRef .tc main_arg0) = V₀ (Proc.devRef .tc main_arg0)
      ∧ V (Proc.devRef .tc main_arg1) = V₀ (Proc.devRef .tc main_arg1)) :
    after opsTap0 V (Proc.devRef .tc main_v7) = acc1 (V₀ (Proc.devRef .tc main_arg0)) (V₀ (Proc.devRef .tc main_arg1))
    ∧ after opsTap0 V (Proc.devRef .tc main_arg0) = V₀ (Proc.devRef .tc main_arg0)
    ∧ after opsTap0 V (Proc.devRef .tc main_arg1) = V₀ (Proc.devRef .tc main_arg1) := by
  obtain ⟨hA, hx, hw⟩ := h
  refine ⟨?_, ?_, ?_⟩
  · rw [(tap0_after V).1, hA, hx, hw]; rfl
  · rw [(tap0_after V).2.1, hx]
  · rw [(tap0_after V).2.2, hw]

/-- On the extended reals the sum after taps 0 … 0 is, at row `b` and lane `d`, the sum before plus `w[0, d]` times the
    entry 1 lanes ahead of `d` in row `b`. -/
theorem acc1_apply (x : XC Ideal) (w : WC Ideal) (b : Fin 8192) (d : Fin 4096) :
    acc1 x w (ix2 b d) = acc0 x w (ix2 b d) + QuadEnhance.tap x w b d 0 1 := by
  unfold acc1
  exact hostTap_apply 0 (by decide) (by decide) (by decide) _ _ _ _ _ _ _ (acc0 x w) x w b d

/-! ## Tap 1: row 1 of the weights times the input rolled 2 lanes -/

/-- The nine operations of tap 1. -/
abbrev opsTap1 : List (HloOp τ sig (Elt F)) :=
  [
    unary main_arg1 main_v8 ((extractStridedSlice S1x4096 ![1, 0] · slices_S16x4096_S1x4096_1_0) : (⟨S16x4096, .f32⟩ : BufTy).Contents (Elt F) → (⟨S1x4096, .f32⟩ : BufTy).Contents (Elt F)),
    reshape main_v8 main_v9 rfl shapeCasts_S1x4096_S4096,
    unary main_v9 main_v10 (broadcastInDim S1x4096 ![1] bcast_S4096_S1x4096_1 : (⟨S4096, .f32⟩ : BufTy).Contents (Elt F) → (⟨S1x4096, .f32⟩ : BufTy).Contents (Elt F)),
    TRef.unary (TRef.of (T := ⟨S8192x4096, .f32⟩) main_arg0) (TRef.of (T := ⟨S8192x4094, .f32⟩) main_call1_v0) (extractStridedSlice S8192x4094 ![0, 2] · slices_S8192x4096_S8192x4094_0_2),
    TRef.unary (TRef.of (T := ⟨S8192x4096, .f32⟩) main_arg0) (TRef.of (T := ⟨S8192x2, .f32⟩) main_call1_v1) (extractStridedSlice S8192x2 ![0, 0] · slices_S8192x4096_S8192x2_0_0),
    TRef.binary (TRef.of (T := ⟨S8192x4094, .f32⟩) main_call1_v0) (TRef.of (T := ⟨S8192x2, .f32⟩) main_call1_v1) (TRef.of (T := ⟨S8192x4096, .f32⟩) main_v11) (fun a b => concatenate S8192x4096 1 [⟨S8192x4094, a⟩, ⟨S8192x2, b⟩] concatenates_S8192x4094_S8192x2_S8192x4096_d1),
    unary main_v10 main_v12 (broadcastInDim S8192x4096 ![0, 1] bcast_S1x4096_S8192x4096_0_1 : (⟨S1x4096, .f32⟩ : BufTy).Contents (Elt F) → (⟨S8192x4096, .f32⟩ : BufTy).Contents (Elt F)),
    binary main_v12 main_v11 main_v13 (mulf : (⟨S8192x4096, .f32⟩ : BufTy).Contents (Elt F) → (⟨S8192x4096, .f32⟩ : BufTy).Contents (Elt F) → (⟨S8192x4096, .f32⟩ : BufTy).Contents (Elt F)),
    binary main_v7 main_v13 main_v14 (addf : (⟨S8192x4096, .f32⟩ : BufTy).Contents (Elt F) → (⟨S8192x4096, .f32⟩ : BufTy).Contents (Elt F) → (⟨S8192x4096, .f32⟩ : BufTy).Contents (Elt F)) ]

theorem tap1_fine : (opsTap1 : List (HloOp τ sig (Elt F))).Forall Fine :=
  ⟨⟨unary_bufs_sub .., rfl⟩, ⟨reshape_bufs_sub .., rfl⟩, ⟨unary_bufs_sub .., rfl⟩, ⟨unary_bufs_sub .., rfl⟩, ⟨unary_bufs_sub .., rfl⟩,
    ⟨binary_bufs_sub .., rfl⟩, ⟨unary_bufs_sub .., rfl⟩, ⟨binary_bufs_sub .., rfl⟩, ⟨binary_bufs_sub .., rfl⟩⟩

/-- The sum after taps 0 … 1, as a function of the two arguments. -/
def acc2 (x : XC F) (w : WC F) : XC F :=
  hostTap 1 slices_S16x4096_S1x4096_1_0 shapeCasts_S1x4096_S4096 bcast_S4096_S1x4096_1 bcast_S1x4096_S8192x4096_0_1
      slices_S8192x4096_S8192x4094_0_2 slices_S8192x4096_S8192x2_0_0 concatenates_S8192x4094_S8192x2_S8192x4096_d1
    (acc1 x w) x w

/-- Tap 1 from any contents `V`: the new sum's buffer holds the old sum's plus row 1 of the weights times the input
    rolled 2 lanes, and the two arguments are untouched. -/
theorem tap1_after (V : Valuation τ sig (Elt F)) :
    after opsTap1 V (Proc.devRef .tc main_v14)
      = hostTap 1 slices_S16x4096_S1x4096_1_0 shapeCasts_S1x4096_S4096 bcast_S4096_S1x4096_1 bcast_S1x4096_S8192x4096_0_1
      slices_S8192x4096_S8192x4094_0_2 slices_S8192x4096_S8192x2_0_0 concatenates_S8192x4094_S8192x2_S8192x4096_d1
          (V (Proc.devRef .tc main_v7)) (V (Proc.devRef .tc main_arg0)) (V (Proc.devRef .tc main_arg1))
    ∧ after opsTap1 V (Proc.devRef .tc main_arg0) = V (Proc.devRef .tc main_arg0)
    ∧ after opsTap1 V (Proc.devRef .tc main_arg1) = V (Proc.devRef .tc main_arg1) := by
  refine ⟨?_, ?_, ?_⟩ <;> after_results_simp <;> rfl

/-- The invariant through tap 1: if `V` holds the sum so far of the arguments as they were at the start (`V₀`) and those
    arguments, the contents after tap 1 hold the next sum and the arguments still. -/
theorem upTo2 (V₀ V : Valuation τ sig (Elt F))
    (h : V (Proc.devRef .tc main_v7) = acc1 (V₀ (Proc.devRef .tc main_arg0)) (V₀ (Proc.devRef .tc main_arg1))
      ∧ V (Proc.devRef .tc main_arg0) = V₀ (Proc.devRef .tc main_arg0)
      ∧ V (Proc.devRef .tc main_arg1) = V₀ (Proc.devRef .tc main_arg1)) :
    after opsTap1 V (Proc.devRef .tc main_v14) = acc2 (V₀ (Proc.devRef .tc main_arg0)) (V₀ (Proc.devRef .tc main_arg1))
    ∧ after opsTap1 V (Proc.devRef .tc main_arg0) = V₀ (Proc.devRef .tc main_arg0)
    ∧ after opsTap1 V (Proc.devRef .tc main_arg1) = V₀ (Proc.devRef .tc main_arg1) := by
  obtain ⟨hA, hx, hw⟩ := h
  refine ⟨?_, ?_, ?_⟩
  · rw [(tap1_after V).1, hA, hx, hw]; rfl
  · rw [(tap1_after V).2.1, hx]
  · rw [(tap1_after V).2.2, hw]

/-- On the extended reals the sum after taps 0 … 1 is, at row `b` and lane `d`, the sum before plus `w[1, d]` times the
    entry 2 lanes ahead of `d` in row `b`. -/
theorem acc2_apply (x : XC Ideal) (w : WC Ideal) (b : Fin 8192) (d : Fin 4096) :
    acc2 x w (ix2 b d) = acc1 x w (ix2 b d) + QuadEnhance.tap x w b d 1 2 := by
  unfold acc2
  exact hostTap_apply 1 (by decide) (by decide) (by decide) _ _ _ _ _ _ _ (acc1 x w) x w b d

/-! ## Tap 2: row 2 of the weights times the input rolled 3 lanes -/

/-- The nine operations of tap 2. -/
abbrev opsTap2 : List (HloOp τ sig (Elt F)) :=
  [
    unary main_arg1 main_v15 ((extractStridedSlice S1x4096 ![2, 0] · slices_S16x4096_S1x4096_2_0) : (⟨S16x4096, .f32⟩ : BufTy).Contents (Elt F) → (⟨S1x4096, .f32⟩ : BufTy).Contents (Elt F)),
    reshape main_v15 main_v16 rfl shapeCasts_S1x4096_S4096,
    unary main_v16 main_v17 (broadcastInDim S1x4096 ![1] bcast_S4096_S1x4096_1 : (⟨S4096, .f32⟩ : BufTy).Contents (Elt F) → (⟨S1x4096, .f32⟩ : BufTy).Contents (Elt F)),
    TRef.unary (TRef.of (T := ⟨S8192x4096, .f32⟩) main_arg0) (TRef.of (T := ⟨S8192x4093, .f32⟩) main_call2_v0) (extractStridedSlice S8192x4093 ![0, 3] · slices_S8192x4096_S8192x4093_0_3),
    TRef.unary (TRef.of (T := ⟨S8192x4096, .f32⟩) main_arg0) (TRef.of (T := ⟨S8192x3, .f32⟩) main_call2_v1) (extractStridedSlice S8192x3 ![0, 0] · slices_S8192x4096_S8192x3_0_0),
    TRef.binary (TRef.of (T := ⟨S8192x4093, .f32⟩) main_call2_v0) (TRef.of (T := ⟨S8192x3, .f32⟩) main_call2_v1) (TRef.of (T := ⟨S8192x4096, .f32⟩) main_v18) (fun a b => concatenate S8192x4096 1 [⟨S8192x4093, a⟩, ⟨S8192x3, b⟩] concatenates_S8192x4093_S8192x3_S8192x4096_d1),
    unary main_v17 main_v19 (broadcastInDim S8192x4096 ![0, 1] bcast_S1x4096_S8192x4096_0_1 : (⟨S1x4096, .f32⟩ : BufTy).Contents (Elt F) → (⟨S8192x4096, .f32⟩ : BufTy).Contents (Elt F)),
    binary main_v19 main_v18 main_v20 (mulf : (⟨S8192x4096, .f32⟩ : BufTy).Contents (Elt F) → (⟨S8192x4096, .f32⟩ : BufTy).Contents (Elt F) → (⟨S8192x4096, .f32⟩ : BufTy).Contents (Elt F)),
    binary main_v14 main_v20 main_v21 (addf : (⟨S8192x4096, .f32⟩ : BufTy).Contents (Elt F) → (⟨S8192x4096, .f32⟩ : BufTy).Contents (Elt F) → (⟨S8192x4096, .f32⟩ : BufTy).Contents (Elt F)) ]

theorem tap2_fine : (opsTap2 : List (HloOp τ sig (Elt F))).Forall Fine :=
  ⟨⟨unary_bufs_sub .., rfl⟩, ⟨reshape_bufs_sub .., rfl⟩, ⟨unary_bufs_sub .., rfl⟩, ⟨unary_bufs_sub .., rfl⟩, ⟨unary_bufs_sub .., rfl⟩,
    ⟨binary_bufs_sub .., rfl⟩, ⟨unary_bufs_sub .., rfl⟩, ⟨binary_bufs_sub .., rfl⟩, ⟨binary_bufs_sub .., rfl⟩⟩

/-- The sum after taps 0 … 2, as a function of the two arguments. -/
def acc3 (x : XC F) (w : WC F) : XC F :=
  hostTap 2 slices_S16x4096_S1x4096_2_0 shapeCasts_S1x4096_S4096 bcast_S4096_S1x4096_1 bcast_S1x4096_S8192x4096_0_1
      slices_S8192x4096_S8192x4093_0_3 slices_S8192x4096_S8192x3_0_0 concatenates_S8192x4093_S8192x3_S8192x4096_d1
    (acc2 x w) x w

/-- Tap 2 from any contents `V`: the new sum's buffer holds the old sum's plus row 2 of the weights times the input
    rolled 3 lanes, and the two arguments are untouched. -/
theorem tap2_after (V : Valuation τ sig (Elt F)) :
    after opsTap2 V (Proc.devRef .tc main_v21)
      = hostTap 2 slices_S16x4096_S1x4096_2_0 shapeCasts_S1x4096_S4096 bcast_S4096_S1x4096_1 bcast_S1x4096_S8192x4096_0_1
      slices_S8192x4096_S8192x4093_0_3 slices_S8192x4096_S8192x3_0_0 concatenates_S8192x4093_S8192x3_S8192x4096_d1
          (V (Proc.devRef .tc main_v14)) (V (Proc.devRef .tc main_arg0)) (V (Proc.devRef .tc main_arg1))
    ∧ after opsTap2 V (Proc.devRef .tc main_arg0) = V (Proc.devRef .tc main_arg0)
    ∧ after opsTap2 V (Proc.devRef .tc main_arg1) = V (Proc.devRef .tc main_arg1) := by
  refine ⟨?_, ?_, ?_⟩ <;> after_results_simp <;> rfl

/-- The invariant through tap 2: if `V` holds the sum so far of the arguments as they were at the start (`V₀`) and those
    arguments, the contents after tap 2 hold the next sum and the arguments still. -/
theorem upTo3 (V₀ V : Valuation τ sig (Elt F))
    (h : V (Proc.devRef .tc main_v14) = acc2 (V₀ (Proc.devRef .tc main_arg0)) (V₀ (Proc.devRef .tc main_arg1))
      ∧ V (Proc.devRef .tc main_arg0) = V₀ (Proc.devRef .tc main_arg0)
      ∧ V (Proc.devRef .tc main_arg1) = V₀ (Proc.devRef .tc main_arg1)) :
    after opsTap2 V (Proc.devRef .tc main_v21) = acc3 (V₀ (Proc.devRef .tc main_arg0)) (V₀ (Proc.devRef .tc main_arg1))
    ∧ after opsTap2 V (Proc.devRef .tc main_arg0) = V₀ (Proc.devRef .tc main_arg0)
    ∧ after opsTap2 V (Proc.devRef .tc main_arg1) = V₀ (Proc.devRef .tc main_arg1) := by
  obtain ⟨hA, hx, hw⟩ := h
  refine ⟨?_, ?_, ?_⟩
  · rw [(tap2_after V).1, hA, hx, hw]; rfl
  · rw [(tap2_after V).2.1, hx]
  · rw [(tap2_after V).2.2, hw]

/-- On the extended reals the sum after taps 0 … 2 is, at row `b` and lane `d`, the sum before plus `w[2, d]` times the
    entry 3 lanes ahead of `d` in row `b`. -/
theorem acc3_apply (x : XC Ideal) (w : WC Ideal) (b : Fin 8192) (d : Fin 4096) :
    acc3 x w (ix2 b d) = acc2 x w (ix2 b d) + QuadEnhance.tap x w b d 2 3 := by
  unfold acc3
  exact hostTap_apply 2 (by decide) (by decide) (by decide) _ _ _ _ _ _ _ (acc2 x w) x w b d

/-! ## Tap 3: row 3 of the weights times the input rolled 4 lanes -/

/-- The nine operations of tap 3. -/
abbrev opsTap3 : List (HloOp τ sig (Elt F)) :=
  [
    unary main_arg1 main_v22 ((extractStridedSlice S1x4096 ![3, 0] · slices_S16x4096_S1x4096_3_0) : (⟨S16x4096, .f32⟩ : BufTy).Contents (Elt F) → (⟨S1x4096, .f32⟩ : BufTy).Contents (Elt F)),
    reshape main_v22 main_v23 rfl shapeCasts_S1x4096_S4096,
    unary main_v23 main_v24 (broadcastInDim S1x4096 ![1] bcast_S4096_S1x4096_1 : (⟨S4096, .f32⟩ : BufTy).Contents (Elt F) → (⟨S1x4096, .f32⟩ : BufTy).Contents (Elt F)),
    TRef.unary (TRef.of (T := ⟨S8192x4096, .f32⟩) main_arg0) (TRef.of (T := ⟨S8192x4092, .f32⟩) main_call3_v0) (extractStridedSlice S8192x4092 ![0, 4] · slices_S8192x4096_S8192x4092_0_4),
    TRef.unary (TRef.of (T := ⟨S8192x4096, .f32⟩) main_arg0) (TRef.of (T := ⟨S8192x4, .f32⟩) main_call3_v1) (extractStridedSlice S8192x4 ![0, 0] · slices_S8192x4096_S8192x4_0_0),
    TRef.binary (TRef.of (T := ⟨S8192x4092, .f32⟩) main_call3_v0) (TRef.of (T := ⟨S8192x4, .f32⟩) main_call3_v1) (TRef.of (T := ⟨S8192x4096, .f32⟩) main_v25) (fun a b => concatenate S8192x4096 1 [⟨S8192x4092, a⟩, ⟨S8192x4, b⟩] concatenates_S8192x4092_S8192x4_S8192x4096_d1),
    unary main_v24 main_v26 (broadcastInDim S8192x4096 ![0, 1] bcast_S1x4096_S8192x4096_0_1 : (⟨S1x4096, .f32⟩ : BufTy).Contents (Elt F) → (⟨S8192x4096, .f32⟩ : BufTy).Contents (Elt F)),
    binary main_v26 main_v25 main_v27 (mulf : (⟨S8192x4096, .f32⟩ : BufTy).Contents (Elt F) → (⟨S8192x4096, .f32⟩ : BufTy).Contents (Elt F) → (⟨S8192x4096, .f32⟩ : BufTy).Contents (Elt F)),
    binary main_v21 main_v27 main_v28 (addf : (⟨S8192x4096, .f32⟩ : BufTy).Contents (Elt F) → (⟨S8192x4096, .f32⟩ : BufTy).Contents (Elt F) → (⟨S8192x4096, .f32⟩ : BufTy).Contents (Elt F)) ]

theorem tap3_fine : (opsTap3 : List (HloOp τ sig (Elt F))).Forall Fine :=
  ⟨⟨unary_bufs_sub .., rfl⟩, ⟨reshape_bufs_sub .., rfl⟩, ⟨unary_bufs_sub .., rfl⟩, ⟨unary_bufs_sub .., rfl⟩, ⟨unary_bufs_sub .., rfl⟩,
    ⟨binary_bufs_sub .., rfl⟩, ⟨unary_bufs_sub .., rfl⟩, ⟨binary_bufs_sub .., rfl⟩, ⟨binary_bufs_sub .., rfl⟩⟩

/-- The sum after taps 0 … 3, as a function of the two arguments. -/
def acc4 (x : XC F) (w : WC F) : XC F :=
  hostTap 3 slices_S16x4096_S1x4096_3_0 shapeCasts_S1x4096_S4096 bcast_S4096_S1x4096_1 bcast_S1x4096_S8192x4096_0_1
      slices_S8192x4096_S8192x4092_0_4 slices_S8192x4096_S8192x4_0_0 concatenates_S8192x4092_S8192x4_S8192x4096_d1
    (acc3 x w) x w

/-- Tap 3 from any contents `V`: the new sum's buffer holds the old sum's plus row 3 of the weights times the input
    rolled 4 lanes, and the two arguments are untouched. -/
theorem tap3_after (V : Valuation τ sig (Elt F)) :
    after opsTap3 V (Proc.devRef .tc main_v28)
      = hostTap 3 slices_S16x4096_S1x4096_3_0 shapeCasts_S1x4096_S4096 bcast_S4096_S1x4096_1 bcast_S1x4096_S8192x4096_0_1
      slices_S8192x4096_S8192x4092_0_4 slices_S8192x4096_S8192x4_0_0 concatenates_S8192x4092_S8192x4_S8192x4096_d1
          (V (Proc.devRef .tc main_v21)) (V (Proc.devRef .tc main_arg0)) (V (Proc.devRef .tc main_arg1))
    ∧ after opsTap3 V (Proc.devRef .tc main_arg0) = V (Proc.devRef .tc main_arg0)
    ∧ after opsTap3 V (Proc.devRef .tc main_arg1) = V (Proc.devRef .tc main_arg1) := by
  refine ⟨?_, ?_, ?_⟩ <;> after_results_simp <;> rfl

/-- The invariant through tap 3: if `V` holds the sum so far of the arguments as they were at the start (`V₀`) and those
    arguments, the contents after tap 3 hold the next sum and the arguments still. -/
theorem upTo4 (V₀ V : Valuation τ sig (Elt F))
    (h : V (Proc.devRef .tc main_v21) = acc3 (V₀ (Proc.devRef .tc main_arg0)) (V₀ (Proc.devRef .tc main_arg1))
      ∧ V (Proc.devRef .tc main_arg0) = V₀ (Proc.devRef .tc main_arg0)
      ∧ V (Proc.devRef .tc main_arg1) = V₀ (Proc.devRef .tc main_arg1)) :
    after opsTap3 V (Proc.devRef .tc main_v28) = acc4 (V₀ (Proc.devRef .tc main_arg0)) (V₀ (Proc.devRef .tc main_arg1))
    ∧ after opsTap3 V (Proc.devRef .tc main_arg0) = V₀ (Proc.devRef .tc main_arg0)
    ∧ after opsTap3 V (Proc.devRef .tc main_arg1) = V₀ (Proc.devRef .tc main_arg1) := by
  obtain ⟨hA, hx, hw⟩ := h
  refine ⟨?_, ?_, ?_⟩
  · rw [(tap3_after V).1, hA, hx, hw]; rfl
  · rw [(tap3_after V).2.1, hx]
  · rw [(tap3_after V).2.2, hw]

/-- On the extended reals the sum after taps 0 … 3 is, at row `b` and lane `d`, the sum before plus `w[3, d]` times the
    entry 4 lanes ahead of `d` in row `b`. -/
theorem acc4_apply (x : XC Ideal) (w : WC Ideal) (b : Fin 8192) (d : Fin 4096) :
    acc4 x w (ix2 b d) = acc3 x w (ix2 b d) + QuadEnhance.tap x w b d 3 4 := by
  unfold acc4
  exact hostTap_apply 3 (by decide) (by decide) (by decide) _ _ _ _ _ _ _ (acc3 x w) x w b d

/-! ## Tap 4: row 4 of the weights times the input rolled 5 lanes -/

/-- The nine operations of tap 4. -/
abbrev opsTap4 : List (HloOp τ sig (Elt F)) :=
  [
    unary main_arg1 main_v29 ((extractStridedSlice S1x4096 ![4, 0] · slices_S16x4096_S1x4096_4_0) : (⟨S16x4096, .f32⟩ : BufTy).Contents (Elt F) → (⟨S1x4096, .f32⟩ : BufTy).Contents (Elt F)),
    reshape main_v29 main_v30 rfl shapeCasts_S1x4096_S4096,
    unary main_v30 main_v31 (broadcastInDim S1x4096 ![1] bcast_S4096_S1x4096_1 : (⟨S4096, .f32⟩ : BufTy).Contents (Elt F) → (⟨S1x4096, .f32⟩ : BufTy).Contents (Elt F)),
    TRef.unary (TRef.of (T := ⟨S8192x4096, .f32⟩) main_arg0) (TRef.of (T := ⟨S8192x4091, .f32⟩) main_call4_v0) (extractStridedSlice S8192x4091 ![0, 5] · slices_S8192x4096_S8192x4091_0_5),
    TRef.unary (TRef.of (T := ⟨S8192x4096, .f32⟩) main_arg0) (TRef.of (T := ⟨S8192x5, .f32⟩) main_call4_v1) (extractStridedSlice S8192x5 ![0, 0] · slices_S8192x4096_S8192x5_0_0),
    TRef.binary (TRef.of (T := ⟨S8192x4091, .f32⟩) main_call4_v0) (TRef.of (T := ⟨S8192x5, .f32⟩) main_call4_v1) (TRef.of (T := ⟨S8192x4096, .f32⟩) main_v32) (fun a b => concatenate S8192x4096 1 [⟨S8192x4091, a⟩, ⟨S8192x5, b⟩] concatenates_S8192x4091_S8192x5_S8192x4096_d1),
    unary main_v31 main_v33 (broadcastInDim S8192x4096 ![0, 1] bcast_S1x4096_S8192x4096_0_1 : (⟨S1x4096, .f32⟩ : BufTy).Contents (Elt F) → (⟨S8192x4096, .f32⟩ : BufTy).Contents (Elt F)),
    binary main_v33 main_v32 main_v34 (mulf : (⟨S8192x4096, .f32⟩ : BufTy).Contents (Elt F) → (⟨S8192x4096, .f32⟩ : BufTy).Contents (Elt F) → (⟨S8192x4096, .f32⟩ : BufTy).Contents (Elt F)),
    binary main_v28 main_v34 main_v35 (addf : (⟨S8192x4096, .f32⟩ : BufTy).Contents (Elt F) → (⟨S8192x4096, .f32⟩ : BufTy).Contents (Elt F) → (⟨S8192x4096, .f32⟩ : BufTy).Contents (Elt F)) ]

theorem tap4_fine : (opsTap4 : List (HloOp τ sig (Elt F))).Forall Fine :=
  ⟨⟨unary_bufs_sub .., rfl⟩, ⟨reshape_bufs_sub .., rfl⟩, ⟨unary_bufs_sub .., rfl⟩, ⟨unary_bufs_sub .., rfl⟩, ⟨unary_bufs_sub .., rfl⟩,
    ⟨binary_bufs_sub .., rfl⟩, ⟨unary_bufs_sub .., rfl⟩, ⟨binary_bufs_sub .., rfl⟩, ⟨binary_bufs_sub .., rfl⟩⟩

/-- The sum after taps 0 … 4, as a function of the two arguments. -/
def acc5 (x : XC F) (w : WC F) : XC F :=
  hostTap 4 slices_S16x4096_S1x4096_4_0 shapeCasts_S1x4096_S4096 bcast_S4096_S1x4096_1 bcast_S1x4096_S8192x4096_0_1
      slices_S8192x4096_S8192x4091_0_5 slices_S8192x4096_S8192x5_0_0 concatenates_S8192x4091_S8192x5_S8192x4096_d1
    (acc4 x w) x w

/-- Tap 4 from any contents `V`: the new sum's buffer holds the old sum's plus row 4 of the weights times the input
    rolled 5 lanes, and the two arguments are untouched. -/
theorem tap4_after (V : Valuation τ sig (Elt F)) :
    after opsTap4 V (Proc.devRef .tc main_v35)
      = hostTap 4 slices_S16x4096_S1x4096_4_0 shapeCasts_S1x4096_S4096 bcast_S4096_S1x4096_1 bcast_S1x4096_S8192x4096_0_1
      slices_S8192x4096_S8192x4091_0_5 slices_S8192x4096_S8192x5_0_0 concatenates_S8192x4091_S8192x5_S8192x4096_d1
          (V (Proc.devRef .tc main_v28)) (V (Proc.devRef .tc main_arg0)) (V (Proc.devRef .tc main_arg1))
    ∧ after opsTap4 V (Proc.devRef .tc main_arg0) = V (Proc.devRef .tc main_arg0)
    ∧ after opsTap4 V (Proc.devRef .tc main_arg1) = V (Proc.devRef .tc main_arg1) := by
  refine ⟨?_, ?_, ?_⟩ <;> after_results_simp <;> rfl

/-- The invariant through tap 4: if `V` holds the sum so far of the arguments as they were at the start (`V₀`) and those
    arguments, the contents after tap 4 hold the next sum and the arguments still. -/
theorem upTo5 (V₀ V : Valuation τ sig (Elt F))
    (h : V (Proc.devRef .tc main_v28) = acc4 (V₀ (Proc.devRef .tc main_arg0)) (V₀ (Proc.devRef .tc main_arg1))
      ∧ V (Proc.devRef .tc main_arg0) = V₀ (Proc.devRef .tc main_arg0)
      ∧ V (Proc.devRef .tc main_arg1) = V₀ (Proc.devRef .tc main_arg1)) :
    after opsTap4 V (Proc.devRef .tc main_v35) = acc5 (V₀ (Proc.devRef .tc main_arg0)) (V₀ (Proc.devRef .tc main_arg1))
    ∧ after opsTap4 V (Proc.devRef .tc main_arg0) = V₀ (Proc.devRef .tc main_arg0)
    ∧ after opsTap4 V (Proc.devRef .tc main_arg1) = V₀ (Proc.devRef .tc main_arg1) := by
  obtain ⟨hA, hx, hw⟩ := h
  refine ⟨?_, ?_, ?_⟩
  · rw [(tap4_after V).1, hA, hx, hw]; rfl
  · rw [(tap4_after V).2.1, hx]
  · rw [(tap4_after V).2.2, hw]

/-- On the extended reals the sum after taps 0 … 4 is, at row `b` and lane `d`, the sum before plus `w[4, d]` times the
    entry 5 lanes ahead of `d` in row `b`. -/
theorem acc5_apply (x : XC Ideal) (w : WC Ideal) (b : Fin 8192) (d : Fin 4096) :
    acc5 x w (ix2 b d) = acc4 x w (ix2 b d) + QuadEnhance.tap x w b d 4 5 := by
  unfold acc5
  exact hostTap_apply 4 (by decide) (by decide) (by decide) _ _ _ _ _ _ _ (acc4 x w) x w b d

/-! ## Tap 5: row 5 of the weights times the input rolled 6 lanes -/

/-- The nine operations of tap 5. -/
abbrev opsTap5 : List (HloOp τ sig (Elt F)) :=
  [
    unary main_arg1 main_v36 ((extractStridedSlice S1x4096 ![5, 0] · slices_S16x4096_S1x4096_5_0) : (⟨S16x4096, .f32⟩ : BufTy).Contents (Elt F) → (⟨S1x4096, .f32⟩ : BufTy).Contents (Elt F)),
    reshape main_v36 main_v37 rfl shapeCasts_S1x4096_S4096,
    unary main_v37 main_v38 (broadcastInDim S1x4096 ![1] bcast_S4096_S1x4096_1 : (⟨S4096, .f32⟩ : BufTy).Contents (Elt F) → (⟨S1x4096, .f32⟩ : BufTy).Contents (Elt F)),
    TRef.unary (TRef.of (T := ⟨S8192x4096, .f32⟩) main_arg0) (TRef.of (T := ⟨S8192x4090, .f32⟩) main_call5_v0) (extractStridedSlice S8192x4090 ![0, 6] · slices_S8192x4096_S8192x4090_0_6),
    TRef.unary (TRef.of (T := ⟨S8192x4096, .f32⟩) main_arg0) (TRef.of (T := ⟨S8192x6, .f32⟩) main_call5_v1) (extractStridedSlice S8192x6 ![0, 0] · slices_S8192x4096_S8192x6_0_0),
    TRef.binary (TRef.of (T := ⟨S8192x4090, .f32⟩) main_call5_v0) (TRef.of (T := ⟨S8192x6, .f32⟩) main_call5_v1) (TRef.of (T := ⟨S8192x4096, .f32⟩) main_v39) (fun a b => concatenate S8192x4096 1 [⟨S8192x4090, a⟩, ⟨S8192x6, b⟩] concatenates_S8192x4090_S8192x6_S8192x4096_d1),
    unary main_v38 main_v40 (broadcastInDim S8192x4096 ![0, 1] bcast_S1x4096_S8192x4096_0_1 : (⟨S1x4096, .f32⟩ : BufTy).Contents (Elt F) → (⟨S8192x4096, .f32⟩ : BufTy).Contents (Elt F)),
    binary main_v40 main_v39 main_v41 (mulf : (⟨S8192x4096, .f32⟩ : BufTy).Contents (Elt F) → (⟨S8192x4096, .f32⟩ : BufTy).Contents (Elt F) → (⟨S8192x4096, .f32⟩ : BufTy).Contents (Elt F)),
    binary main_v35 main_v41 main_v42 (addf : (⟨S8192x4096, .f32⟩ : BufTy).Contents (Elt F) → (⟨S8192x4096, .f32⟩ : BufTy).Contents (Elt F) → (⟨S8192x4096, .f32⟩ : BufTy).Contents (Elt F)) ]

theorem tap5_fine : (opsTap5 : List (HloOp τ sig (Elt F))).Forall Fine :=
  ⟨⟨unary_bufs_sub .., rfl⟩, ⟨reshape_bufs_sub .., rfl⟩, ⟨unary_bufs_sub .., rfl⟩, ⟨unary_bufs_sub .., rfl⟩, ⟨unary_bufs_sub .., rfl⟩,
    ⟨binary_bufs_sub .., rfl⟩, ⟨unary_bufs_sub .., rfl⟩, ⟨binary_bufs_sub .., rfl⟩, ⟨binary_bufs_sub .., rfl⟩⟩

/-- The sum after taps 0 … 5, as a function of the two arguments. -/
def acc6 (x : XC F) (w : WC F) : XC F :=
  hostTap 5 slices_S16x4096_S1x4096_5_0 shapeCasts_S1x4096_S4096 bcast_S4096_S1x4096_1 bcast_S1x4096_S8192x4096_0_1
      slices_S8192x4096_S8192x4090_0_6 slices_S8192x4096_S8192x6_0_0 concatenates_S8192x4090_S8192x6_S8192x4096_d1
    (acc5 x w) x w

/-- Tap 5 from any contents `V`: the new sum's buffer holds the old sum's plus row 5 of the weights times the input
    rolled 6 lanes, and the two arguments are untouched. -/
theorem tap5_after (V : Valuation τ sig (Elt F)) :
    after opsTap5 V (Proc.devRef .tc main_v42)
      = hostTap 5 slices_S16x4096_S1x4096_5_0 shapeCasts_S1x4096_S4096 bcast_S4096_S1x4096_1 bcast_S1x4096_S8192x4096_0_1
      slices_S8192x4096_S8192x4090_0_6 slices_S8192x4096_S8192x6_0_0 concatenates_S8192x4090_S8192x6_S8192x4096_d1
          (V (Proc.devRef .tc main_v35)) (V (Proc.devRef .tc main_arg0)) (V (Proc.devRef .tc main_arg1))
    ∧ after opsTap5 V (Proc.devRef .tc main_arg0) = V (Proc.devRef .tc main_arg0)
    ∧ after opsTap5 V (Proc.devRef .tc main_arg1) = V (Proc.devRef .tc main_arg1) := by
  refine ⟨?_, ?_, ?_⟩ <;> after_results_simp <;> rfl

/-- The invariant through tap 5: if `V` holds the sum so far of the arguments as they were at the start (`V₀`) and those
    arguments, the contents after tap 5 hold the next sum and the arguments still. -/
theorem upTo6 (V₀ V : Valuation τ sig (Elt F))
    (h : V (Proc.devRef .tc main_v35) = acc5 (V₀ (Proc.devRef .tc main_arg0)) (V₀ (Proc.devRef .tc main_arg1))
      ∧ V (Proc.devRef .tc main_arg0) = V₀ (Proc.devRef .tc main_arg0)
      ∧ V (Proc.devRef .tc main_arg1) = V₀ (Proc.devRef .tc main_arg1)) :
    after opsTap5 V (Proc.devRef .tc main_v42) = acc6 (V₀ (Proc.devRef .tc main_arg0)) (V₀ (Proc.devRef .tc main_arg1))
    ∧ after opsTap5 V (Proc.devRef .tc main_arg0) = V₀ (Proc.devRef .tc main_arg0)
    ∧ after opsTap5 V (Proc.devRef .tc main_arg1) = V₀ (Proc.devRef .tc main_arg1) := by
  obtain ⟨hA, hx, hw⟩ := h
  refine ⟨?_, ?_, ?_⟩
  · rw [(tap5_after V).1, hA, hx, hw]; rfl
  · rw [(tap5_after V).2.1, hx]
  · rw [(tap5_after V).2.2, hw]

/-- On the extended reals the sum after taps 0 … 5 is, at row `b` and lane `d`, the sum before plus `w[5, d]` times the
    entry 6 lanes ahead of `d` in row `b`. -/
theorem acc6_apply (x : XC Ideal) (w : WC Ideal) (b : Fin 8192) (d : Fin 4096) :
    acc6 x w (ix2 b d) = acc5 x w (ix2 b d) + QuadEnhance.tap x w b d 5 6 := by
  unfold acc6
  exact hostTap_apply 5 (by decide) (by decide) (by decide) _ _ _ _ _ _ _ (acc5 x w) x w b d

/-! ## Tap 6: row 6 of the weights times the input rolled 7 lanes -/

/-- The nine operations of tap 6. -/
abbrev opsTap6 : List (HloOp τ sig (Elt F)) :=
  [
    unary main_arg1 main_v43 ((extractStridedSlice S1x4096 ![6, 0] · slices_S16x4096_S1x4096_6_0) : (⟨S16x4096, .f32⟩ : BufTy).Contents (Elt F) → (⟨S1x4096, .f32⟩ : BufTy).Contents (Elt F)),
    reshape main_v43 main_v44 rfl shapeCasts_S1x4096_S4096,
    unary main_v44 main_v45 (broadcastInDim S1x4096 ![1] bcast_S4096_S1x4096_1 : (⟨S4096, .f32⟩ : BufTy).Contents (Elt F) → (⟨S1x4096, .f32⟩ : BufTy).Contents (Elt F)),
    TRef.unary (TRef.of (T := ⟨S8192x4096, .f32⟩) main_arg0) (TRef.of (T := ⟨S8192x4089, .f32⟩) main_call6_v0) (extractStridedSlice S8192x4089 ![0, 7] · slices_S8192x4096_S8192x4089_0_7),
    TRef.unary (TRef.of (T := ⟨S8192x4096, .f32⟩) main_arg0) (TRef.of (T := ⟨S8192x7, .f32⟩) main_call6_v1) (extractStridedSlice S8192x7 ![0, 0] · slices_S8192x4096_S8192x7_0_0),
    TRef.binary (TRef.of (T := ⟨S8192x4089, .f32⟩) main_call6_v0) (TRef.of (T := ⟨S8192x7, .f32⟩) main_call6_v1) (TRef.of (T := ⟨S8192x4096, .f32⟩) main_v46) (fun a b => concatenate S8192x4096 1 [⟨S8192x4089, a⟩, ⟨S8192x7, b⟩] concatenates_S8192x4089_S8192x7_S8192x4096_d1),
    unary main_v45 main_v47 (broadcastInDim S8192x4096 ![0, 1] bcast_S1x4096_S8192x4096_0_1 : (⟨S1x4096, .f32⟩ : BufTy).Contents (Elt F) → (⟨S8192x4096, .f32⟩ : BufTy).Contents (Elt F)),
    binary main_v47 main_v46 main_v48 (mulf : (⟨S8192x4096, .f32⟩ : BufTy).Contents (Elt F) → (⟨S8192x4096, .f32⟩ : BufTy).Contents (Elt F) → (⟨S8192x4096, .f32⟩ : BufTy).Contents (Elt F)),
    binary main_v42 main_v48 main_v49 (addf : (⟨S8192x4096, .f32⟩ : BufTy).Contents (Elt F) → (⟨S8192x4096, .f32⟩ : BufTy).Contents (Elt F) → (⟨S8192x4096, .f32⟩ : BufTy).Contents (Elt F)) ]

theorem tap6_fine : (opsTap6 : List (HloOp τ sig (Elt F))).Forall Fine :=
  ⟨⟨unary_bufs_sub .., rfl⟩, ⟨reshape_bufs_sub .., rfl⟩, ⟨unary_bufs_sub .., rfl⟩, ⟨unary_bufs_sub .., rfl⟩, ⟨unary_bufs_sub .., rfl⟩,
    ⟨binary_bufs_sub .., rfl⟩, ⟨unary_bufs_sub .., rfl⟩, ⟨binary_bufs_sub .., rfl⟩, ⟨binary_bufs_sub .., rfl⟩⟩

/-- The sum after taps 0 … 6, as a function of the two arguments. -/
def acc7 (x : XC F) (w : WC F) : XC F :=
  hostTap 6 slices_S16x4096_S1x4096_6_0 shapeCasts_S1x4096_S4096 bcast_S4096_S1x4096_1 bcast_S1x4096_S8192x4096_0_1
      slices_S8192x4096_S8192x4089_0_7 slices_S8192x4096_S8192x7_0_0 concatenates_S8192x4089_S8192x7_S8192x4096_d1
    (acc6 x w) x w

/-- Tap 6 from any contents `V`: the new sum's buffer holds the old sum's plus row 6 of the weights times the input
    rolled 7 lanes, and the two arguments are untouched. -/
theorem tap6_after (V : Valuation τ sig (Elt F)) :
    after opsTap6 V (Proc.devRef .tc main_v49)
      = hostTap 6 slices_S16x4096_S1x4096_6_0 shapeCasts_S1x4096_S4096 bcast_S4096_S1x4096_1 bcast_S1x4096_S8192x4096_0_1
      slices_S8192x4096_S8192x4089_0_7 slices_S8192x4096_S8192x7_0_0 concatenates_S8192x4089_S8192x7_S8192x4096_d1
          (V (Proc.devRef .tc main_v42)) (V (Proc.devRef .tc main_arg0)) (V (Proc.devRef .tc main_arg1))
    ∧ after opsTap6 V (Proc.devRef .tc main_arg0) = V (Proc.devRef .tc main_arg0)
    ∧ after opsTap6 V (Proc.devRef .tc main_arg1) = V (Proc.devRef .tc main_arg1) := by
  refine ⟨?_, ?_, ?_⟩ <;> after_results_simp <;> rfl

/-- The invariant through tap 6: if `V` holds the sum so far of the arguments as they were at the start (`V₀`) and those
    arguments, the contents after tap 6 hold the next sum and the arguments still. -/
theorem upTo7 (V₀ V : Valuation τ sig (Elt F))
    (h : V (Proc.devRef .tc main_v42) = acc6 (V₀ (Proc.devRef .tc main_arg0)) (V₀ (Proc.devRef .tc main_arg1))
      ∧ V (Proc.devRef .tc main_arg0) = V₀ (Proc.devRef .tc main_arg0)
      ∧ V (Proc.devRef .tc main_arg1) = V₀ (Proc.devRef .tc main_arg1)) :
    after opsTap6 V (Proc.devRef .tc main_v49) = acc7 (V₀ (Proc.devRef .tc main_arg0)) (V₀ (Proc.devRef .tc main_arg1))
    ∧ after opsTap6 V (Proc.devRef .tc main_arg0) = V₀ (Proc.devRef .tc main_arg0)
    ∧ after opsTap6 V (Proc.devRef .tc main_arg1) = V₀ (Proc.devRef .tc main_arg1) := by
  obtain ⟨hA, hx, hw⟩ := h
  refine ⟨?_, ?_, ?_⟩
  · rw [(tap6_after V).1, hA, hx, hw]; rfl
  · rw [(tap6_after V).2.1, hx]
  · rw [(tap6_after V).2.2, hw]

/-- On the extended reals the sum after taps 0 … 6 is, at row `b` and lane `d`, the sum before plus `w[6, d]` times the
    entry 7 lanes ahead of `d` in row `b`. -/
theorem acc7_apply (x : XC Ideal) (w : WC Ideal) (b : Fin 8192) (d : Fin 4096) :
    acc7 x w (ix2 b d) = acc6 x w (ix2 b d) + QuadEnhance.tap x w b d 6 7 := by
  unfold acc7
  exact hostTap_apply 6 (by decide) (by decide) (by decide) _ _ _ _ _ _ _ (acc6 x w) x w b d

/-! ## Tap 7: row 7 of the weights times the input rolled 8 lanes -/

/-- The nine operations of tap 7. -/
abbrev opsTap7 : List (HloOp τ sig (Elt F)) :=
  [
    unary main_arg1 main_v50 ((extractStridedSlice S1x4096 ![7, 0] · slices_S16x4096_S1x4096_7_0) : (⟨S16x4096, .f32⟩ : BufTy).Contents (Elt F) → (⟨S1x4096, .f32⟩ : BufTy).Contents (Elt F)),
    reshape main_v50 main_v51 rfl shapeCasts_S1x4096_S4096,
    unary main_v51 main_v52 (broadcastInDim S1x4096 ![1] bcast_S4096_S1x4096_1 : (⟨S4096, .f32⟩ : BufTy).Contents (Elt F) → (⟨S1x4096, .f32⟩ : BufTy).Contents (Elt F)),
    TRef.unary (TRef.of (T := ⟨S8192x4096, .f32⟩) main_arg0) (TRef.of (T := ⟨S8192x4088, .f32⟩) main_call7_v0) (extractStridedSlice S8192x4088 ![0, 8] · slices_S8192x4096_S8192x4088_0_8),
    TRef.unary (TRef.of (T := ⟨S8192x4096, .f32⟩) main_arg0) (TRef.of (T := ⟨S8192x8, .f32⟩) main_call7_v1) (extractStridedSlice S8192x8 ![0, 0] · slices_S8192x4096_S8192x8_0_0),
    TRef.binary (TRef.of (T := ⟨S8192x4088, .f32⟩) main_call7_v0) (TRef.of (T := ⟨S8192x8, .f32⟩) main_call7_v1) (TRef.of (T := ⟨S8192x4096, .f32⟩) main_v53) (fun a b => concatenate S8192x4096 1 [⟨S8192x4088, a⟩, ⟨S8192x8, b⟩] concatenates_S8192x4088_S8192x8_S8192x4096_d1),
    unary main_v52 main_v54 (broadcastInDim S8192x4096 ![0, 1] bcast_S1x4096_S8192x4096_0_1 : (⟨S1x4096, .f32⟩ : BufTy).Contents (Elt F) → (⟨S8192x4096, .f32⟩ : BufTy).Contents (Elt F)),
    binary main_v54 main_v53 main_v55 (mulf : (⟨S8192x4096, .f32⟩ : BufTy).Contents (Elt F) → (⟨S8192x4096, .f32⟩ : BufTy).Contents (Elt F) → (⟨S8192x4096, .f32⟩ : BufTy).Contents (Elt F)),
    binary main_v49 main_v55 main_v56 (addf : (⟨S8192x4096, .f32⟩ : BufTy).Contents (Elt F) → (⟨S8192x4096, .f32⟩ : BufTy).Contents (Elt F) → (⟨S8192x4096, .f32⟩ : BufTy).Contents (Elt F)) ]

theorem tap7_fine : (opsTap7 : List (HloOp τ sig (Elt F))).Forall Fine :=
  ⟨⟨unary_bufs_sub .., rfl⟩, ⟨reshape_bufs_sub .., rfl⟩, ⟨unary_bufs_sub .., rfl⟩, ⟨unary_bufs_sub .., rfl⟩, ⟨unary_bufs_sub .., rfl⟩,
    ⟨binary_bufs_sub .., rfl⟩, ⟨unary_bufs_sub .., rfl⟩, ⟨binary_bufs_sub .., rfl⟩, ⟨binary_bufs_sub .., rfl⟩⟩

/-- The sum after taps 0 … 7, as a function of the two arguments. -/
def acc8 (x : XC F) (w : WC F) : XC F :=
  hostTap 7 slices_S16x4096_S1x4096_7_0 shapeCasts_S1x4096_S4096 bcast_S4096_S1x4096_1 bcast_S1x4096_S8192x4096_0_1
      slices_S8192x4096_S8192x4088_0_8 slices_S8192x4096_S8192x8_0_0 concatenates_S8192x4088_S8192x8_S8192x4096_d1
    (acc7 x w) x w

/-- Tap 7 from any contents `V`: the new sum's buffer holds the old sum's plus row 7 of the weights times the input
    rolled 8 lanes, and the two arguments are untouched. -/
theorem tap7_after (V : Valuation τ sig (Elt F)) :
    after opsTap7 V (Proc.devRef .tc main_v56)
      = hostTap 7 slices_S16x4096_S1x4096_7_0 shapeCasts_S1x4096_S4096 bcast_S4096_S1x4096_1 bcast_S1x4096_S8192x4096_0_1
      slices_S8192x4096_S8192x4088_0_8 slices_S8192x4096_S8192x8_0_0 concatenates_S8192x4088_S8192x8_S8192x4096_d1
          (V (Proc.devRef .tc main_v49)) (V (Proc.devRef .tc main_arg0)) (V (Proc.devRef .tc main_arg1))
    ∧ after opsTap7 V (Proc.devRef .tc main_arg0) = V (Proc.devRef .tc main_arg0)
    ∧ after opsTap7 V (Proc.devRef .tc main_arg1) = V (Proc.devRef .tc main_arg1) := by
  refine ⟨?_, ?_, ?_⟩ <;> after_results_simp <;> rfl

/-- The invariant through tap 7: if `V` holds the sum so far of the arguments as they were at the start (`V₀`) and those
    arguments, the contents after tap 7 hold the next sum and the arguments still. -/
theorem upTo8 (V₀ V : Valuation τ sig (Elt F))
    (h : V (Proc.devRef .tc main_v49) = acc7 (V₀ (Proc.devRef .tc main_arg0)) (V₀ (Proc.devRef .tc main_arg1))
      ∧ V (Proc.devRef .tc main_arg0) = V₀ (Proc.devRef .tc main_arg0)
      ∧ V (Proc.devRef .tc main_arg1) = V₀ (Proc.devRef .tc main_arg1)) :
    after opsTap7 V (Proc.devRef .tc main_v56) = acc8 (V₀ (Proc.devRef .tc main_arg0)) (V₀ (Proc.devRef .tc main_arg1))
    ∧ after opsTap7 V (Proc.devRef .tc main_arg0) = V₀ (Proc.devRef .tc main_arg0)
    ∧ after opsTap7 V (Proc.devRef .tc main_arg1) = V₀ (Proc.devRef .tc main_arg1) := by
  obtain ⟨hA, hx, hw⟩ := h
  refine ⟨?_, ?_, ?_⟩
  · rw [(tap7_after V).1, hA, hx, hw]; rfl
  · rw [(tap7_after V).2.1, hx]
  · rw [(tap7_after V).2.2, hw]

/-- On the extended reals the sum after taps 0 … 7 is, at row `b` and lane `d`, the sum before plus `w[7, d]` times the
    entry 8 lanes ahead of `d` in row `b`. -/
theorem acc8_apply (x : XC Ideal) (w : WC Ideal) (b : Fin 8192) (d : Fin 4096) :
    acc8 x w (ix2 b d) = acc7 x w (ix2 b d) + QuadEnhance.tap x w b d 7 8 := by
  unfold acc8
  exact hostTap_apply 7 (by decide) (by decide) (by decide) _ _ _ _ _ _ _ (acc7 x w) x w b d

/-! ## Tap 8: row 8 of the weights times the input rolled 9 lanes -/

/-- The nine operations of tap 8. -/
abbrev opsTap8 : List (HloOp τ sig (Elt F)) :=
  [
    unary main_arg1 main_v57 ((extractStridedSlice S1x4096 ![8, 0] · slices_S16x4096_S1x4096_8_0) : (⟨S16x4096, .f32⟩ : BufTy).Contents (Elt F) → (⟨S1x4096, .f32⟩ : BufTy).Contents (Elt F)),
    reshape main_v57 main_v58 rfl shapeCasts_S1x4096_S4096,
    unary main_v58 main_v59 (broadcastInDim S1x4096 ![1] bcast_S4096_S1x4096_1 : (⟨S4096, .f32⟩ : BufTy).Contents (Elt F) → (⟨S1x4096, .f32⟩ : BufTy).Contents (Elt F)),
    TRef.unary (TRef.of (T := ⟨S8192x4096, .f32⟩) main_arg0) (TRef.of (T := ⟨S8192x4087, .f32⟩) main_call8_v0) (extractStridedSlice S8192x4087 ![0, 9] · slices_S8192x4096_S8192x4087_0_9),
    TRef.unary (TRef.of (T := ⟨S8192x4096, .f32⟩) main_arg0) (TRef.of (T := ⟨S8192x9, .f32⟩) main_call8_v1) (extractStridedSlice S8192x9 ![0, 0] · slices_S8192x4096_S8192x9_0_0),
    TRef.binary (TRef.of (T := ⟨S8192x4087, .f32⟩) main_call8_v0) (TRef.of (T := ⟨S8192x9, .f32⟩) main_call8_v1) (TRef.of (T := ⟨S8192x4096, .f32⟩) main_v60) (fun a b => concatenate S8192x4096 1 [⟨S8192x4087, a⟩, ⟨S8192x9, b⟩] concatenates_S8192x4087_S8192x9_S8192x4096_d1),
    unary main_v59 main_v61 (broadcastInDim S8192x4096 ![0, 1] bcast_S1x4096_S8192x4096_0_1 : (⟨S1x4096, .f32⟩ : BufTy).Contents (Elt F) → (⟨S8192x4096, .f32⟩ : BufTy).Contents (Elt F)),
    binary main_v61 main_v60 main_v62 (mulf : (⟨S8192x4096, .f32⟩ : BufTy).Contents (Elt F) → (⟨S8192x4096, .f32⟩ : BufTy).Contents (Elt F) → (⟨S8192x4096, .f32⟩ : BufTy).Contents (Elt F)),
    binary main_v56 main_v62 main_v63 (addf : (⟨S8192x4096, .f32⟩ : BufTy).Contents (Elt F) → (⟨S8192x4096, .f32⟩ : BufTy).Contents (Elt F) → (⟨S8192x4096, .f32⟩ : BufTy).Contents (Elt F)) ]

theorem tap8_fine : (opsTap8 : List (HloOp τ sig (Elt F))).Forall Fine :=
  ⟨⟨unary_bufs_sub .., rfl⟩, ⟨reshape_bufs_sub .., rfl⟩, ⟨unary_bufs_sub .., rfl⟩, ⟨unary_bufs_sub .., rfl⟩, ⟨unary_bufs_sub .., rfl⟩,
    ⟨binary_bufs_sub .., rfl⟩, ⟨unary_bufs_sub .., rfl⟩, ⟨binary_bufs_sub .., rfl⟩, ⟨binary_bufs_sub .., rfl⟩⟩

/-- The sum after taps 0 … 8, as a function of the two arguments. -/
def acc9 (x : XC F) (w : WC F) : XC F :=
  hostTap 8 slices_S16x4096_S1x4096_8_0 shapeCasts_S1x4096_S4096 bcast_S4096_S1x4096_1 bcast_S1x4096_S8192x4096_0_1
      slices_S8192x4096_S8192x4087_0_9 slices_S8192x4096_S8192x9_0_0 concatenates_S8192x4087_S8192x9_S8192x4096_d1
    (acc8 x w) x w

/-- Tap 8 from any contents `V`: the new sum's buffer holds the old sum's plus row 8 of the weights times the input
    rolled 9 lanes, and the two arguments are untouched. -/
theorem tap8_after (V : Valuation τ sig (Elt F)) :
    after opsTap8 V (Proc.devRef .tc main_v63)
      = hostTap 8 slices_S16x4096_S1x4096_8_0 shapeCasts_S1x4096_S4096 bcast_S4096_S1x4096_1 bcast_S1x4096_S8192x4096_0_1
      slices_S8192x4096_S8192x4087_0_9 slices_S8192x4096_S8192x9_0_0 concatenates_S8192x4087_S8192x9_S8192x4096_d1
          (V (Proc.devRef .tc main_v56)) (V (Proc.devRef .tc main_arg0)) (V (Proc.devRef .tc main_arg1))
    ∧ after opsTap8 V (Proc.devRef .tc main_arg0) = V (Proc.devRef .tc main_arg0)
    ∧ after opsTap8 V (Proc.devRef .tc main_arg1) = V (Proc.devRef .tc main_arg1) := by
  refine ⟨?_, ?_, ?_⟩ <;> after_results_simp <;> rfl

/-- The invariant through tap 8: if `V` holds the sum so far of the arguments as they were at the start (`V₀`) and those
    arguments, the contents after tap 8 hold the next sum and the arguments still. -/
theorem upTo9 (V₀ V : Valuation τ sig (Elt F))
    (h : V (Proc.devRef .tc main_v56) = acc8 (V₀ (Proc.devRef .tc main_arg0)) (V₀ (Proc.devRef .tc main_arg1))
      ∧ V (Proc.devRef .tc main_arg0) = V₀ (Proc.devRef .tc main_arg0)
      ∧ V (Proc.devRef .tc main_arg1) = V₀ (Proc.devRef .tc main_arg1)) :
    after opsTap8 V (Proc.devRef .tc main_v63) = acc9 (V₀ (Proc.devRef .tc main_arg0)) (V₀ (Proc.devRef .tc main_arg1))
    ∧ after opsTap8 V (Proc.devRef .tc main_arg0) = V₀ (Proc.devRef .tc main_arg0)
    ∧ after opsTap8 V (Proc.devRef .tc main_arg1) = V₀ (Proc.devRef .tc main_arg1) := by
  obtain ⟨hA, hx, hw⟩ := h
  refine ⟨?_, ?_, ?_⟩
  · rw [(tap8_after V).1, hA, hx, hw]; rfl
  · rw [(tap8_after V).2.1, hx]
  · rw [(tap8_after V).2.2, hw]

/-- On the extended reals the sum after taps 0 … 8 is, at row `b` and lane `d`, the sum before plus `w[8, d]` times the
    entry 9 lanes ahead of `d` in row `b`. -/
theorem acc9_apply (x : XC Ideal) (w : WC Ideal) (b : Fin 8192) (d : Fin 4096) :
    acc9 x w (ix2 b d) = acc8 x w (ix2 b d) + QuadEnhance.tap x w b d 8 9 := by
  unfold acc9
  exact hostTap_apply 8 (by decide) (by decide) (by decide) _ _ _ _ _ _ _ (acc8 x w) x w b d

/-! ## Tap 9: row 9 of the weights times the input rolled 10 lanes -/

/-- The nine operations of tap 9. -/
abbrev opsTap9 : List (HloOp τ sig (Elt F)) :=
  [
    unary main_arg1 main_v64 ((extractStridedSlice S1x4096 ![9, 0] · slices_S16x4096_S1x4096_9_0) : (⟨S16x4096, .f32⟩ : BufTy).Contents (Elt F) → (⟨S1x4096, .f32⟩ : BufTy).Contents (Elt F)),
    reshape main_v64 main_v65 rfl shapeCasts_S1x4096_S4096,
    unary main_v65 main_v66 (broadcastInDim S1x4096 ![1] bcast_S4096_S1x4096_1 : (⟨S4096, .f32⟩ : BufTy).Contents (Elt F) → (⟨S1x4096, .f32⟩ : BufTy).Contents (Elt F)),
    TRef.unary (TRef.of (T := ⟨S8192x4096, .f32⟩) main_arg0) (TRef.of (T := ⟨S8192x4086, .f32⟩) main_call9_v0) (extractStridedSlice S8192x4086 ![0, 10] · slices_S8192x4096_S8192x4086_0_10),
    TRef.unary (TRef.of (T := ⟨S8192x4096, .f32⟩) main_arg0) (TRef.of (T := ⟨S8192x10, .f32⟩) main_call9_v1) (extractStridedSlice S8192x10 ![0, 0] · slices_S8192x4096_S8192x10_0_0),
    TRef.binary (TRef.of (T := ⟨S8192x4086, .f32⟩) main_call9_v0) (TRef.of (T := ⟨S8192x10, .f32⟩) main_call9_v1) (TRef.of (T := ⟨S8192x4096, .f32⟩) main_v67) (fun a b => concatenate S8192x4096 1 [⟨S8192x4086, a⟩, ⟨S8192x10, b⟩] concatenates_S8192x4086_S8192x10_S8192x4096_d1),
    unary main_v66 main_v68 (broadcastInDim S8192x4096 ![0, 1] bcast_S1x4096_S8192x4096_0_1 : (⟨S1x4096, .f32⟩ : BufTy).Contents (Elt F) → (⟨S8192x4096, .f32⟩ : BufTy).Contents (Elt F)),
    binary main_v68 main_v67 main_v69 (mulf : (⟨S8192x4096, .f32⟩ : BufTy).Contents (Elt F) → (⟨S8192x4096, .f32⟩ : BufTy).Contents (Elt F) → (⟨S8192x4096, .f32⟩ : BufTy).Contents (Elt F)),
    binary main_v63 main_v69 main_v70 (addf : (⟨S8192x4096, .f32⟩ : BufTy).Contents (Elt F) → (⟨S8192x4096, .f32⟩ : BufTy).Contents (Elt F) → (⟨S8192x4096, .f32⟩ : BufTy).Contents (Elt F)) ]

theorem tap9_fine : (opsTap9 : List (HloOp τ sig (Elt F))).Forall Fine :=
  ⟨⟨unary_bufs_sub .., rfl⟩, ⟨reshape_bufs_sub .., rfl⟩, ⟨unary_bufs_sub .., rfl⟩, ⟨unary_bufs_sub .., rfl⟩, ⟨unary_bufs_sub .., rfl⟩,
    ⟨binary_bufs_sub .., rfl⟩, ⟨unary_bufs_sub .., rfl⟩, ⟨binary_bufs_sub .., rfl⟩, ⟨binary_bufs_sub .., rfl⟩⟩

/-- The sum after taps 0 … 9, as a function of the two arguments. -/
def acc10 (x : XC F) (w : WC F) : XC F :=
  hostTap 9 slices_S16x4096_S1x4096_9_0 shapeCasts_S1x4096_S4096 bcast_S4096_S1x4096_1 bcast_S1x4096_S8192x4096_0_1
      slices_S8192x4096_S8192x4086_0_10 slices_S8192x4096_S8192x10_0_0 concatenates_S8192x4086_S8192x10_S8192x4096_d1
    (acc9 x w) x w

/-- Tap 9 from any contents `V`: the new sum's buffer holds the old sum's plus row 9 of the weights times the input
    rolled 10 lanes, and the two arguments are untouched. -/
theorem tap9_after (V : Valuation τ sig (Elt F)) :
    after opsTap9 V (Proc.devRef .tc main_v70)
      = hostTap 9 slices_S16x4096_S1x4096_9_0 shapeCasts_S1x4096_S4096 bcast_S4096_S1x4096_1 bcast_S1x4096_S8192x4096_0_1
      slices_S8192x4096_S8192x4086_0_10 slices_S8192x4096_S8192x10_0_0 concatenates_S8192x4086_S8192x10_S8192x4096_d1
          (V (Proc.devRef .tc main_v63)) (V (Proc.devRef .tc main_arg0)) (V (Proc.devRef .tc main_arg1))
    ∧ after opsTap9 V (Proc.devRef .tc main_arg0) = V (Proc.devRef .tc main_arg0)
    ∧ after opsTap9 V (Proc.devRef .tc main_arg1) = V (Proc.devRef .tc main_arg1) := by
  refine ⟨?_, ?_, ?_⟩ <;> after_results_simp <;> rfl

/-- The invariant through tap 9: if `V` holds the sum so far of the arguments as they were at the start (`V₀`) and those
    arguments, the contents after tap 9 hold the next sum and the arguments still. -/
theorem upTo10 (V₀ V : Valuation τ sig (Elt F))
    (h : V (Proc.devRef .tc main_v63) = acc9 (V₀ (Proc.devRef .tc main_arg0)) (V₀ (Proc.devRef .tc main_arg1))
      ∧ V (Proc.devRef .tc main_arg0) = V₀ (Proc.devRef .tc main_arg0)
      ∧ V (Proc.devRef .tc main_arg1) = V₀ (Proc.devRef .tc main_arg1)) :
    after opsTap9 V (Proc.devRef .tc main_v70) = acc10 (V₀ (Proc.devRef .tc main_arg0)) (V₀ (Proc.devRef .tc main_arg1))
    ∧ after opsTap9 V (Proc.devRef .tc main_arg0) = V₀ (Proc.devRef .tc main_arg0)
    ∧ after opsTap9 V (Proc.devRef .tc main_arg1) = V₀ (Proc.devRef .tc main_arg1) := by
  obtain ⟨hA, hx, hw⟩ := h
  refine ⟨?_, ?_, ?_⟩
  · rw [(tap9_after V).1, hA, hx, hw]; rfl
  · rw [(tap9_after V).2.1, hx]
  · rw [(tap9_after V).2.2, hw]

/-- On the extended reals the sum after taps 0 … 9 is, at row `b` and lane `d`, the sum before plus `w[9, d]` times the
    entry 10 lanes ahead of `d` in row `b`. -/
theorem acc10_apply (x : XC Ideal) (w : WC Ideal) (b : Fin 8192) (d : Fin 4096) :
    acc10 x w (ix2 b d) = acc9 x w (ix2 b d) + QuadEnhance.tap x w b d 9 10 := by
  unfold acc10
  exact hostTap_apply 9 (by decide) (by decide) (by decide) _ _ _ _ _ _ _ (acc9 x w) x w b d

/-! ## Tap 10: row 10 of the weights times the input rolled 11 lanes -/

/-- The nine operations of tap 10. -/
abbrev opsTap10 : List (HloOp τ sig (Elt F)) :=
  [
    unary main_arg1 main_v71 ((extractStridedSlice S1x4096 ![10, 0] · slices_S16x4096_S1x4096_10_0) : (⟨S16x4096, .f32⟩ : BufTy).Contents (Elt F) → (⟨S1x4096, .f32⟩ : BufTy).Contents (Elt F)),
    reshape main_v71 main_v72 rfl shapeCasts_S1x4096_S4096,
    unary main_v72 main_v73 (broadcastInDim S1x4096 ![1] bcast_S4096_S1x4096_1 : (⟨S4096, .f32⟩ : BufTy).Contents (Elt F) → (⟨S1x4096, .f32⟩ : BufTy).Contents (Elt F)),
    TRef.unary (TRef.of (T := ⟨S8192x4096, .f32⟩) main_arg0) (TRef.of (T := ⟨S8192x4085, .f32⟩) main_call10_v0) (extractStridedSlice S8192x4085 ![0, 11] · slices_S8192x4096_S8192x4085_0_11),
    TRef.unary (TRef.of (T := ⟨S8192x4096, .f32⟩) main_arg0) (TRef.of (T := ⟨S8192x11, .f32⟩) main_call10_v1) (extractStridedSlice S8192x11 ![0, 0] · slices_S8192x4096_S8192x11_0_0),
    TRef.binary (TRef.of (T := ⟨S8192x4085, .f32⟩) main_call10_v0) (TRef.of (T := ⟨S8192x11, .f32⟩) main_call10_v1) (TRef.of (T := ⟨S8192x4096, .f32⟩) main_v74) (fun a b => concatenate S8192x4096 1 [⟨S8192x4085, a⟩, ⟨S8192x11, b⟩] concatenates_S8192x4085_S8192x11_S8192x4096_d1),
    unary main_v73 main_v75 (broadcastInDim S8192x4096 ![0, 1] bcast_S1x4096_S8192x4096_0_1 : (⟨S1x4096, .f32⟩ : BufTy).Contents (Elt F) → (⟨S8192x4096, .f32⟩ : BufTy).Contents (Elt F)),
    binary main_v75 main_v74 main_v76 (mulf : (⟨S8192x4096, .f32⟩ : BufTy).Contents (Elt F) → (⟨S8192x4096, .f32⟩ : BufTy).Contents (Elt F) → (⟨S8192x4096, .f32⟩ : BufTy).Contents (Elt F)),
    binary main_v70 main_v76 main_v77 (addf : (⟨S8192x4096, .f32⟩ : BufTy).Contents (Elt F) → (⟨S8192x4096, .f32⟩ : BufTy).Contents (Elt F) → (⟨S8192x4096, .f32⟩ : BufTy).Contents (Elt F)) ]

theorem tap10_fine : (opsTap10 : List (HloOp τ sig (Elt F))).Forall Fine :=
  ⟨⟨unary_bufs_sub .., rfl⟩, ⟨reshape_bufs_sub .., rfl⟩, ⟨unary_bufs_sub .., rfl⟩, ⟨unary_bufs_sub .., rfl⟩, ⟨unary_bufs_sub .., rfl⟩,
    ⟨binary_bufs_sub .., rfl⟩, ⟨unary_bufs_sub .., rfl⟩, ⟨binary_bufs_sub .., rfl⟩, ⟨binary_bufs_sub .., rfl⟩⟩

/-- The sum after taps 0 … 10, as a function of the two arguments. -/
def acc11 (x : XC F) (w : WC F) : XC F :=
  hostTap 10 slices_S16x4096_S1x4096_10_0 shapeCasts_S1x4096_S4096 bcast_S4096_S1x4096_1 bcast_S1x4096_S8192x4096_0_1
      slices_S8192x4096_S8192x4085_0_11 slices_S8192x4096_S8192x11_0_0 concatenates_S8192x4085_S8192x11_S8192x4096_d1
    (acc10 x w) x w

/-- Tap 10 from any contents `V`: the new sum's buffer holds the old sum's plus row 10 of the weights times the input
    rolled 11 lanes, and the two arguments are untouched. -/
theorem tap10_after (V : Valuation τ sig (Elt F)) :
    after opsTap10 V (Proc.devRef .tc main_v77)
      = hostTap 10 slices_S16x4096_S1x4096_10_0 shapeCasts_S1x4096_S4096 bcast_S4096_S1x4096_1 bcast_S1x4096_S8192x4096_0_1
      slices_S8192x4096_S8192x4085_0_11 slices_S8192x4096_S8192x11_0_0 concatenates_S8192x4085_S8192x11_S8192x4096_d1
          (V (Proc.devRef .tc main_v70)) (V (Proc.devRef .tc main_arg0)) (V (Proc.devRef .tc main_arg1))
    ∧ after opsTap10 V (Proc.devRef .tc main_arg0) = V (Proc.devRef .tc main_arg0)
    ∧ after opsTap10 V (Proc.devRef .tc main_arg1) = V (Proc.devRef .tc main_arg1) := by
  refine ⟨?_, ?_, ?_⟩ <;> after_results_simp <;> rfl

/-- The invariant through tap 10: if `V` holds the sum so far of the arguments as they were at the start (`V₀`) and those
    arguments, the contents after tap 10 hold the next sum and the arguments still. -/
theorem upTo11 (V₀ V : Valuation τ sig (Elt F))
    (h : V (Proc.devRef .tc main_v70) = acc10 (V₀ (Proc.devRef .tc main_arg0)) (V₀ (Proc.devRef .tc main_arg1))
      ∧ V (Proc.devRef .tc main_arg0) = V₀ (Proc.devRef .tc main_arg0)
      ∧ V (Proc.devRef .tc main_arg1) = V₀ (Proc.devRef .tc main_arg1)) :
    after opsTap10 V (Proc.devRef .tc main_v77) = acc11 (V₀ (Proc.devRef .tc main_arg0)) (V₀ (Proc.devRef .tc main_arg1))
    ∧ after opsTap10 V (Proc.devRef .tc main_arg0) = V₀ (Proc.devRef .tc main_arg0)
    ∧ after opsTap10 V (Proc.devRef .tc main_arg1) = V₀ (Proc.devRef .tc main_arg1) := by
  obtain ⟨hA, hx, hw⟩ := h
  refine ⟨?_, ?_, ?_⟩
  · rw [(tap10_after V).1, hA, hx, hw]; rfl
  · rw [(tap10_after V).2.1, hx]
  · rw [(tap10_after V).2.2, hw]

/-- On the extended reals the sum after taps 0 … 10 is, at row `b` and lane `d`, the sum before plus `w[10, d]` times the
    entry 11 lanes ahead of `d` in row `b`. -/
theorem acc11_apply (x : XC Ideal) (w : WC Ideal) (b : Fin 8192) (d : Fin 4096) :
    acc11 x w (ix2 b d) = acc10 x w (ix2 b d) + QuadEnhance.tap x w b d 10 11 := by
  unfold acc11
  exact hostTap_apply 10 (by decide) (by decide) (by decide) _ _ _ _ _ _ _ (acc10 x w) x w b d

/-! ## Tap 11: row 11 of the weights times the input rolled 12 lanes -/

/-- The nine operations of tap 11. -/
abbrev opsTap11 : List (HloOp τ sig (Elt F)) :=
  [
    unary main_arg1 main_v78 ((extractStridedSlice S1x4096 ![11, 0] · slices_S16x4096_S1x4096_11_0) : (⟨S16x4096, .f32⟩ : BufTy).Contents (Elt F) → (⟨S1x4096, .f32⟩ : BufTy).Contents (Elt F)),
    reshape main_v78 main_v79 rfl shapeCasts_S1x4096_S4096,
    unary main_v79 main_v80 (broadcastInDim S1x4096 ![1] bcast_S4096_S1x4096_1 : (⟨S4096, .f32⟩ : BufTy).Contents (Elt F) → (⟨S1x4096, .f32⟩ : BufTy).Contents (Elt F)),
    TRef.unary (TRef.of (T := ⟨S8192x4096, .f32⟩) main_arg0) (TRef.of (T := ⟨S8192x4084, .f32⟩) main_call11_v0) (extractStridedSlice S8192x4084 ![0, 12] · slices_S8192x4096_S8192x4084_0_12),
    TRef.unary (TRef.of (T := ⟨S8192x4096, .f32⟩) main_arg0) (TRef.of (T := ⟨S8192x12, .f32⟩) main_call11_v1) (extractStridedSlice S8192x12 ![0, 0] · slices_S8192x4096_S8192x12_0_0),
    TRef.binary (TRef.of (T := ⟨S8192x4084, .f32⟩) main_call11_v0) (TRef.of (T := ⟨S8192x12, .f32⟩) main_call11_v1) (TRef.of (T := ⟨S8192x4096, .f32⟩) main_v81) (fun a b => concatenate S8192x4096 1 [⟨S8192x4084, a⟩, ⟨S8192x12, b⟩] concatenates_S8192x4084_S8192x12_S8192x4096_d1),
    unary main_v80 main_v82 (broadcastInDim S8192x4096 ![0, 1] bcast_S1x4096_S8192x4096_0_1 : (⟨S1x4096, .f32⟩ : BufTy).Contents (Elt F) → (⟨S8192x4096, .f32⟩ : BufTy).Contents (Elt F)),
    binary main_v82 main_v81 main_v83 (mulf : (⟨S8192x4096, .f32⟩ : BufTy).Contents (Elt F) → (⟨S8192x4096, .f32⟩ : BufTy).Contents (Elt F) → (⟨S8192x4096, .f32⟩ : BufTy).Contents (Elt F)),
    binary main_v77 main_v83 main_v84 (addf : (⟨S8192x4096, .f32⟩ : BufTy).Contents (Elt F) → (⟨S8192x4096, .f32⟩ : BufTy).Contents (Elt F) → (⟨S8192x4096, .f32⟩ : BufTy).Contents (Elt F)) ]

theorem tap11_fine : (opsTap11 : List (HloOp τ sig (Elt F))).Forall Fine :=
  ⟨⟨unary_bufs_sub .., rfl⟩, ⟨reshape_bufs_sub .., rfl⟩, ⟨unary_bufs_sub .., rfl⟩, ⟨unary_bufs_sub .., rfl⟩, ⟨unary_bufs_sub .., rfl⟩,
    ⟨binary_bufs_sub .., rfl⟩, ⟨unary_bufs_sub .., rfl⟩, ⟨binary_bufs_sub .., rfl⟩, ⟨binary_bufs_sub .., rfl⟩⟩

/-- The sum after taps 0 … 11, as a function of the two arguments. -/
def acc12 (x : XC F) (w : WC F) : XC F :=
  hostTap 11 slices_S16x4096_S1x4096_11_0 shapeCasts_S1x4096_S4096 bcast_S4096_S1x4096_1 bcast_S1x4096_S8192x4096_0_1
      slices_S8192x4096_S8192x4084_0_12 slices_S8192x4096_S8192x12_0_0 concatenates_S8192x4084_S8192x12_S8192x4096_d1
    (acc11 x w) x w

/-- Tap 11 from any contents `V`: the new sum's buffer holds the old sum's plus row 11 of the weights times the input
    rolled 12 lanes, and the two arguments are untouched. -/
theorem tap11_after (V : Valuation τ sig (Elt F)) :
    after opsTap11 V (Proc.devRef .tc main_v84)
      = hostTap 11 slices_S16x4096_S1x4096_11_0 shapeCasts_S1x4096_S4096 bcast_S4096_S1x4096_1 bcast_S1x4096_S8192x4096_0_1
      slices_S8192x4096_S8192x4084_0_12 slices_S8192x4096_S8192x12_0_0 concatenates_S8192x4084_S8192x12_S8192x4096_d1
          (V (Proc.devRef .tc main_v77)) (V (Proc.devRef .tc main_arg0)) (V (Proc.devRef .tc main_arg1))
    ∧ after opsTap11 V (Proc.devRef .tc main_arg0) = V (Proc.devRef .tc main_arg0)
    ∧ after opsTap11 V (Proc.devRef .tc main_arg1) = V (Proc.devRef .tc main_arg1) := by
  refine ⟨?_, ?_, ?_⟩ <;> after_results_simp <;> rfl

/-- The invariant through tap 11: if `V` holds the sum so far of the arguments as they were at the start (`V₀`) and those
    arguments, the contents after tap 11 hold the next sum and the arguments still. -/
theorem upTo12 (V₀ V : Valuation τ sig (Elt F))
    (h : V (Proc.devRef .tc main_v77) = acc11 (V₀ (Proc.devRef .tc main_arg0)) (V₀ (Proc.devRef .tc main_arg1))
      ∧ V (Proc.devRef .tc main_arg0) = V₀ (Proc.devRef .tc main_arg0)
      ∧ V (Proc.devRef .tc main_arg1) = V₀ (Proc.devRef .tc main_arg1)) :
    after opsTap11 V (Proc.devRef .tc main_v84) = acc12 (V₀ (Proc.devRef .tc main_arg0)) (V₀ (Proc.devRef .tc main_arg1))
    ∧ after opsTap11 V (Proc.devRef .tc main_arg0) = V₀ (Proc.devRef .tc main_arg0)
    ∧ after opsTap11 V (Proc.devRef .tc main_arg1) = V₀ (Proc.devRef .tc main_arg1) := by
  obtain ⟨hA, hx, hw⟩ := h
  refine ⟨?_, ?_, ?_⟩
  · rw [(tap11_after V).1, hA, hx, hw]; rfl
  · rw [(tap11_after V).2.1, hx]
  · rw [(tap11_after V).2.2, hw]

/-- On the extended reals the sum after taps 0 … 11 is, at row `b` and lane `d`, the sum before plus `w[11, d]` times the
    entry 12 lanes ahead of `d` in row `b`. -/
theorem acc12_apply (x : XC Ideal) (w : WC Ideal) (b : Fin 8192) (d : Fin 4096) :
    acc12 x w (ix2 b d) = acc11 x w (ix2 b d) + QuadEnhance.tap x w b d 11 12 := by
  unfold acc12
  exact hostTap_apply 11 (by decide) (by decide) (by decide) _ _ _ _ _ _ _ (acc11 x w) x w b d

/-! ## Tap 12: row 12 of the weights times the input rolled 13 lanes -/

/-- The nine operations of tap 12. -/
abbrev opsTap12 : List (HloOp τ sig (Elt F)) :=
  [
    unary main_arg1 main_v85 ((extractStridedSlice S1x4096 ![12, 0] · slices_S16x4096_S1x4096_12_0) : (⟨S16x4096, .f32⟩ : BufTy).Contents (Elt F) → (⟨S1x4096, .f32⟩ : BufTy).Contents (Elt F)),
    reshape main_v85 main_v86 rfl shapeCasts_S1x4096_S4096,
    unary main_v86 main_v87 (broadcastInDim S1x4096 ![1] bcast_S4096_S1x4096_1 : (⟨S4096, .f32⟩ : BufTy).Contents (Elt F) → (⟨S1x4096, .f32⟩ : BufTy).Contents (Elt F)),
    TRef.unary (TRef.of (T := ⟨S8192x4096, .f32⟩) main_arg0) (TRef.of (T := ⟨S8192x4083, .f32⟩) main_call12_v0) (extractStridedSlice S8192x4083 ![0, 13] · slices_S8192x4096_S8192x4083_0_13),
    TRef.unary (TRef.of (T := ⟨S8192x4096, .f32⟩) main_arg0) (TRef.of (T := ⟨S8192x13, .f32⟩) main_call12_v1) (extractStridedSlice S8192x13 ![0, 0] · slices_S8192x4096_S8192x13_0_0),
    TRef.binary (TRef.of (T := ⟨S8192x4083, .f32⟩) main_call12_v0) (TRef.of (T := ⟨S8192x13, .f32⟩) main_call12_v1) (TRef.of (T := ⟨S8192x4096, .f32⟩) main_v88) (fun a b => concatenate S8192x4096 1 [⟨S8192x4083, a⟩, ⟨S8192x13, b⟩] concatenates_S8192x4083_S8192x13_S8192x4096_d1),
    unary main_v87 main_v89 (broadcastInDim S8192x4096 ![0, 1] bcast_S1x4096_S8192x4096_0_1 : (⟨S1x4096, .f32⟩ : BufTy).Contents (Elt F) → (⟨S8192x4096, .f32⟩ : BufTy).Contents (Elt F)),
    binary main_v89 main_v88 main_v90 (mulf : (⟨S8192x4096, .f32⟩ : BufTy).Contents (Elt F) → (⟨S8192x4096, .f32⟩ : BufTy).Contents (Elt F) → (⟨S8192x4096, .f32⟩ : BufTy).Contents (Elt F)),
    binary main_v84 main_v90 main_v91 (addf : (⟨S8192x4096, .f32⟩ : BufTy).Contents (Elt F) → (⟨S8192x4096, .f32⟩ : BufTy).Contents (Elt F) → (⟨S8192x4096, .f32⟩ : BufTy).Contents (Elt F)) ]

theorem tap12_fine : (opsTap12 : List (HloOp τ sig (Elt F))).Forall Fine :=
  ⟨⟨unary_bufs_sub .., rfl⟩, ⟨reshape_bufs_sub .., rfl⟩, ⟨unary_bufs_sub .., rfl⟩, ⟨unary_bufs_sub .., rfl⟩, ⟨unary_bufs_sub .., rfl⟩,
    ⟨binary_bufs_sub .., rfl⟩, ⟨unary_bufs_sub .., rfl⟩, ⟨binary_bufs_sub .., rfl⟩, ⟨binary_bufs_sub .., rfl⟩⟩

/-- The sum after taps 0 … 12, as a function of the two arguments. -/
def acc13 (x : XC F) (w : WC F) : XC F :=
  hostTap 12 slices_S16x4096_S1x4096_12_0 shapeCasts_S1x4096_S4096 bcast_S4096_S1x4096_1 bcast_S1x4096_S8192x4096_0_1
      slices_S8192x4096_S8192x4083_0_13 slices_S8192x4096_S8192x13_0_0 concatenates_S8192x4083_S8192x13_S8192x4096_d1
    (acc12 x w) x w

/-- Tap 12 from any contents `V`: the new sum's buffer holds the old sum's plus row 12 of the weights times the input
    rolled 13 lanes, and the two arguments are untouched. -/
theorem tap12_after (V : Valuation τ sig (Elt F)) :
    after opsTap12 V (Proc.devRef .tc main_v91)
      = hostTap 12 slices_S16x4096_S1x4096_12_0 shapeCasts_S1x4096_S4096 bcast_S4096_S1x4096_1 bcast_S1x4096_S8192x4096_0_1
      slices_S8192x4096_S8192x4083_0_13 slices_S8192x4096_S8192x13_0_0 concatenates_S8192x4083_S8192x13_S8192x4096_d1
          (V (Proc.devRef .tc main_v84)) (V (Proc.devRef .tc main_arg0)) (V (Proc.devRef .tc main_arg1))
    ∧ after opsTap12 V (Proc.devRef .tc main_arg0) = V (Proc.devRef .tc main_arg0)
    ∧ after opsTap12 V (Proc.devRef .tc main_arg1) = V (Proc.devRef .tc main_arg1) := by
  refine ⟨?_, ?_, ?_⟩ <;> after_results_simp <;> rfl

/-- The invariant through tap 12: if `V` holds the sum so far of the arguments as they were at the start (`V₀`) and those
    arguments, the contents after tap 12 hold the next sum and the arguments still. -/
theorem upTo13 (V₀ V : Valuation τ sig (Elt F))
    (h : V (Proc.devRef .tc main_v84) = acc12 (V₀ (Proc.devRef .tc main_arg0)) (V₀ (Proc.devRef .tc main_arg1))
      ∧ V (Proc.devRef .tc main_arg0) = V₀ (Proc.devRef .tc main_arg0)
      ∧ V (Proc.devRef .tc main_arg1) = V₀ (Proc.devRef .tc main_arg1)) :
    after opsTap12 V (Proc.devRef .tc main_v91) = acc13 (V₀ (Proc.devRef .tc main_arg0)) (V₀ (Proc.devRef .tc main_arg1))
    ∧ after opsTap12 V (Proc.devRef .tc main_arg0) = V₀ (Proc.devRef .tc main_arg0)
    ∧ after opsTap12 V (Proc.devRef .tc main_arg1) = V₀ (Proc.devRef .tc main_arg1) := by
  obtain ⟨hA, hx, hw⟩ := h
  refine ⟨?_, ?_, ?_⟩
  · rw [(tap12_after V).1, hA, hx, hw]; rfl
  · rw [(tap12_after V).2.1, hx]
  · rw [(tap12_after V).2.2, hw]

/-- On the extended reals the sum after taps 0 … 12 is, at row `b` and lane `d`, the sum before plus `w[12, d]` times the
    entry 13 lanes ahead of `d` in row `b`. -/
theorem acc13_apply (x : XC Ideal) (w : WC Ideal) (b : Fin 8192) (d : Fin 4096) :
    acc13 x w (ix2 b d) = acc12 x w (ix2 b d) + QuadEnhance.tap x w b d 12 13 := by
  unfold acc13
  exact hostTap_apply 12 (by decide) (by decide) (by decide) _ _ _ _ _ _ _ (acc12 x w) x w b d

/-! ## Tap 13: row 13 of the weights times the input rolled 14 lanes -/

/-- The nine operations of tap 13. -/
abbrev opsTap13 : List (HloOp τ sig (Elt F)) :=
  [
    unary main_arg1 main_v92 ((extractStridedSlice S1x4096 ![13, 0] · slices_S16x4096_S1x4096_13_0) : (⟨S16x4096, .f32⟩ : BufTy).Contents (Elt F) → (⟨S1x4096, .f32⟩ : BufTy).Contents (Elt F)),
    reshape main_v92 main_v93 rfl shapeCasts_S1x4096_S4096,
    unary main_v93 main_v94 (broadcastInDim S1x4096 ![1] bcast_S4096_S1x4096_1 : (⟨S4096, .f32⟩ : BufTy).Contents (Elt F) → (⟨S1x4096, .f32⟩ : BufTy).Contents (Elt F)),
    TRef.unary (TRef.of (T := ⟨S8192x4096, .f32⟩) main_arg0) (TRef.of (T := ⟨S8192x4082, .f32⟩) main_call13_v0) (extractStridedSlice S8192x4082 ![0, 14] · slices_S8192x4096_S8192x4082_0_14),
    TRef.unary (TRef.of (T := ⟨S8192x4096, .f32⟩) main_arg0) (TRef.of (T := ⟨S8192x14, .f32⟩) main_call13_v1) (extractStridedSlice S8192x14 ![0, 0] · slices_S8192x4096_S8192x14_0_0),
    TRef.binary (TRef.of (T := ⟨S8192x4082, .f32⟩) main_call13_v0) (TRef.of (T := ⟨S8192x14, .f32⟩) main_call13_v1) (TRef.of (T := ⟨S8192x4096, .f32⟩) main_v95) (fun a b => concatenate S8192x4096 1 [⟨S8192x4082, a⟩, ⟨S8192x14, b⟩] concatenates_S8192x4082_S8192x14_S8192x4096_d1),
    unary main_v94 main_v96 (broadcastInDim S8192x4096 ![0, 1] bcast_S1x4096_S8192x4096_0_1 : (⟨S1x4096, .f32⟩ : BufTy).Contents (Elt F) → (⟨S8192x4096, .f32⟩ : BufTy).Contents (Elt F)),
    binary main_v96 main_v95 main_v97 (mulf : (⟨S8192x4096, .f32⟩ : BufTy).Contents (Elt F) → (⟨S8192x4096, .f32⟩ : BufTy).Contents (Elt F) → (⟨S8192x4096, .f32⟩ : BufTy).Contents (Elt F)),
    binary main_v91 main_v97 main_v98 (addf : (⟨S8192x4096, .f32⟩ : BufTy).Contents (Elt F) → (⟨S8192x4096, .f32⟩ : BufTy).Contents (Elt F) → (⟨S8192x4096, .f32⟩ : BufTy).Contents (Elt F)) ]

theorem tap13_fine : (opsTap13 : List (HloOp τ sig (Elt F))).Forall Fine :=
  ⟨⟨unary_bufs_sub .., rfl⟩, ⟨reshape_bufs_sub .., rfl⟩, ⟨unary_bufs_sub .., rfl⟩, ⟨unary_bufs_sub .., rfl⟩, ⟨unary_bufs_sub .., rfl⟩,
    ⟨binary_bufs_sub .., rfl⟩, ⟨unary_bufs_sub .., rfl⟩, ⟨binary_bufs_sub .., rfl⟩, ⟨binary_bufs_sub .., rfl⟩⟩

/-- The sum after taps 0 … 13, as a function of the two arguments. -/
def acc14 (x : XC F) (w : WC F) : XC F :=
  hostTap 13 slices_S16x4096_S1x4096_13_0 shapeCasts_S1x4096_S4096 bcast_S4096_S1x4096_1 bcast_S1x4096_S8192x4096_0_1
      slices_S8192x4096_S8192x4082_0_14 slices_S8192x4096_S8192x14_0_0 concatenates_S8192x4082_S8192x14_S8192x4096_d1
    (acc13 x w) x w

/-- Tap 13 from any contents `V`: the new sum's buffer holds the old sum's plus row 13 of the weights times the input
    rolled 14 lanes, and the two arguments are untouched. -/
theorem tap13_after (V : Valuation τ sig (Elt F)) :
    after opsTap13 V (Proc.devRef .tc main_v98)
      = hostTap 13 slices_S16x4096_S1x4096_13_0 shapeCasts_S1x4096_S4096 bcast_S4096_S1x4096_1 bcast_S1x4096_S8192x4096_0_1
      slices_S8192x4096_S8192x4082_0_14 slices_S8192x4096_S8192x14_0_0 concatenates_S8192x4082_S8192x14_S8192x4096_d1
          (V (Proc.devRef .tc main_v91)) (V (Proc.devRef .tc main_arg0)) (V (Proc.devRef .tc main_arg1))
    ∧ after opsTap13 V (Proc.devRef .tc main_arg0) = V (Proc.devRef .tc main_arg0)
    ∧ after opsTap13 V (Proc.devRef .tc main_arg1) = V (Proc.devRef .tc main_arg1) := by
  refine ⟨?_, ?_, ?_⟩ <;> after_results_simp <;> rfl

/-- The invariant through tap 13: if `V` holds the sum so far of the arguments as they were at the start (`V₀`) and those
    arguments, the contents after tap 13 hold the next sum and the arguments still. -/
theorem upTo14 (V₀ V : Valuation τ sig (Elt F))
    (h : V (Proc.devRef .tc main_v91) = acc13 (V₀ (Proc.devRef .tc main_arg0)) (V₀ (Proc.devRef .tc main_arg1))
      ∧ V (Proc.devRef .tc main_arg0) = V₀ (Proc.devRef .tc main_arg0)
      ∧ V (Proc.devRef .tc main_arg1) = V₀ (Proc.devRef .tc main_arg1)) :
    after opsTap13 V (Proc.devRef .tc main_v98) = acc14 (V₀ (Proc.devRef .tc main_arg0)) (V₀ (Proc.devRef .tc main_arg1))
    ∧ after opsTap13 V (Proc.devRef .tc main_arg0) = V₀ (Proc.devRef .tc main_arg0)
    ∧ after opsTap13 V (Proc.devRef .tc main_arg1) = V₀ (Proc.devRef .tc main_arg1) := by
  obtain ⟨hA, hx, hw⟩ := h
  refine ⟨?_, ?_, ?_⟩
  · rw [(tap13_after V).1, hA, hx, hw]; rfl
  · rw [(tap13_after V).2.1, hx]
  · rw [(tap13_after V).2.2, hw]

/-- On the extended reals the sum after taps 0 … 13 is, at row `b` and lane `d`, the sum before plus `w[13, d]` times the
    entry 14 lanes ahead of `d` in row `b`. -/
theorem acc14_apply (x : XC Ideal) (w : WC Ideal) (b : Fin 8192) (d : Fin 4096) :
    acc14 x w (ix2 b d) = acc13 x w (ix2 b d) + QuadEnhance.tap x w b d 13 14 := by
  unfold acc14
  exact hostTap_apply 13 (by decide) (by decide) (by decide) _ _ _ _ _ _ _ (acc13 x w) x w b d

/-! ## Tap 14: row 14 of the weights times the input rolled 15 lanes -/

/-- The nine operations of tap 14. -/
abbrev opsTap14 : List (HloOp τ sig (Elt F)) :=
  [
    unary main_arg1 main_v99 ((extractStridedSlice S1x4096 ![14, 0] · slices_S16x4096_S1x4096_14_0) : (⟨S16x4096, .f32⟩ : BufTy).Contents (Elt F) → (⟨S1x4096, .f32⟩ : BufTy).Contents (Elt F)),
    reshape main_v99 main_v100 rfl shapeCasts_S1x4096_S4096,
    unary main_v100 main_v101 (broadcastInDim S1x4096 ![1] bcast_S4096_S1x4096_1 : (⟨S4096, .f32⟩ : BufTy).Contents (Elt F) → (⟨S1x4096, .f32⟩ : BufTy).Contents (Elt F)),
    TRef.unary (TRef.of (T := ⟨S8192x4096, .f32⟩) main_arg0) (TRef.of (T := ⟨S8192x4081, .f32⟩) main_call14_v0) (extractStridedSlice S8192x4081 ![0, 15] · slices_S8192x4096_S8192x4081_0_15),
    TRef.unary (TRef.of (T := ⟨S8192x4096, .f32⟩) main_arg0) (TRef.of (T := ⟨S8192x15, .f32⟩) main_call14_v1) (extractStridedSlice S8192x15 ![0, 0] · slices_S8192x4096_S8192x15_0_0),
    TRef.binary (TRef.of (T := ⟨S8192x4081, .f32⟩) main_call14_v0) (TRef.of (T := ⟨S8192x15, .f32⟩) main_call14_v1) (TRef.of (T := ⟨S8192x4096, .f32⟩) main_v102) (fun a b => concatenate S8192x4096 1 [⟨S8192x4081, a⟩, ⟨S8192x15, b⟩] concatenates_S8192x4081_S8192x15_S8192x4096_d1),
    unary main_v101 main_v103 (broadcastInDim S8192x4096 ![0, 1] bcast_S1x4096_S8192x4096_0_1 : (⟨S1x4096, .f32⟩ : BufTy).Contents (Elt F) → (⟨S8192x4096, .f32⟩ : BufTy).Contents (Elt F)),
    binary main_v103 main_v102 main_v104 (mulf : (⟨S8192x4096, .f32⟩ : BufTy).Contents (Elt F) → (⟨S8192x4096, .f32⟩ : BufTy).Contents (Elt F) → (⟨S8192x4096, .f32⟩ : BufTy).Contents (Elt F)),
    binary main_v98 main_v104 main_v105 (addf : (⟨S8192x4096, .f32⟩ : BufTy).Contents (Elt F) → (⟨S8192x4096, .f32⟩ : BufTy).Contents (Elt F) → (⟨S8192x4096, .f32⟩ : BufTy).Contents (Elt F)) ]

theorem tap14_fine : (opsTap14 : List (HloOp τ sig (Elt F))).Forall Fine :=
  ⟨⟨unary_bufs_sub .., rfl⟩, ⟨reshape_bufs_sub .., rfl⟩, ⟨unary_bufs_sub .., rfl⟩, ⟨unary_bufs_sub .., rfl⟩, ⟨unary_bufs_sub .., rfl⟩,
    ⟨binary_bufs_sub .., rfl⟩, ⟨unary_bufs_sub .., rfl⟩, ⟨binary_bufs_sub .., rfl⟩, ⟨binary_bufs_sub .., rfl⟩⟩

/-- The sum after taps 0 … 14, as a function of the two arguments. -/
def acc15 (x : XC F) (w : WC F) : XC F :=
  hostTap 14 slices_S16x4096_S1x4096_14_0 shapeCasts_S1x4096_S4096 bcast_S4096_S1x4096_1 bcast_S1x4096_S8192x4096_0_1
      slices_S8192x4096_S8192x4081_0_15 slices_S8192x4096_S8192x15_0_0 concatenates_S8192x4081_S8192x15_S8192x4096_d1
    (acc14 x w) x w

/-- Tap 14 from any contents `V`: the new sum's buffer holds the old sum's plus row 14 of the weights times the input
    rolled 15 lanes, and the two arguments are untouched. -/
theorem tap14_after (V : Valuation τ sig (Elt F)) :
    after opsTap14 V (Proc.devRef .tc main_v105)
      = hostTap 14 slices_S16x4096_S1x4096_14_0 shapeCasts_S1x4096_S4096 bcast_S4096_S1x4096_1 bcast_S1x4096_S8192x4096_0_1
      slices_S8192x4096_S8192x4081_0_15 slices_S8192x4096_S8192x15_0_0 concatenates_S8192x4081_S8192x15_S8192x4096_d1
          (V (Proc.devRef .tc main_v98)) (V (Proc.devRef .tc main_arg0)) (V (Proc.devRef .tc main_arg1))
    ∧ after opsTap14 V (Proc.devRef .tc main_arg0) = V (Proc.devRef .tc main_arg0)
    ∧ after opsTap14 V (Proc.devRef .tc main_arg1) = V (Proc.devRef .tc main_arg1) := by
  refine ⟨?_, ?_, ?_⟩ <;> after_results_simp <;> rfl

/-- The invariant through tap 14: if `V` holds the sum so far of the arguments as they were at the start (`V₀`) and those
    arguments, the contents after tap 14 hold the next sum and the arguments still. -/
theorem upTo15 (V₀ V : Valuation τ sig (Elt F))
    (h : V (Proc.devRef .tc main_v98) = acc14 (V₀ (Proc.devRef .tc main_arg0)) (V₀ (Proc.devRef .tc main_arg1))
      ∧ V (Proc.devRef .tc main_arg0) = V₀ (Proc.devRef .tc main_arg0)
      ∧ V (Proc.devRef .tc main_arg1) = V₀ (Proc.devRef .tc main_arg1)) :
    after opsTap14 V (Proc.devRef .tc main_v105) = acc15 (V₀ (Proc.devRef .tc main_arg0)) (V₀ (Proc.devRef .tc main_arg1))
    ∧ after opsTap14 V (Proc.devRef .tc main_arg0) = V₀ (Proc.devRef .tc main_arg0)
    ∧ after opsTap14 V (Proc.devRef .tc main_arg1) = V₀ (Proc.devRef .tc main_arg1) := by
  obtain ⟨hA, hx, hw⟩ := h
  refine ⟨?_, ?_, ?_⟩
  · rw [(tap14_after V).1, hA, hx, hw]; rfl
  · rw [(tap14_after V).2.1, hx]
  · rw [(tap14_after V).2.2, hw]

/-- On the extended reals the sum after taps 0 … 14 is, at row `b` and lane `d`, the sum before plus `w[14, d]` times the
    entry 15 lanes ahead of `d` in row `b`. -/
theorem acc15_apply (x : XC Ideal) (w : WC Ideal) (b : Fin 8192) (d : Fin 4096) :
    acc15 x w (ix2 b d) = acc14 x w (ix2 b d) + QuadEnhance.tap x w b d 14 15 := by
  unfold acc15
  exact hostTap_apply 14 (by decide) (by decide) (by decide) _ _ _ _ _ _ _ (acc14 x w) x w b d

/-! ## Tap 15: row 15 of the weights times the input rolled 16 lanes -/

/-- The nine operations of tap 15. -/
abbrev opsTap15 : List (HloOp τ sig (Elt F)) :=
  [
    unary main_arg1 main_v106 ((extractStridedSlice S1x4096 ![15, 0] · slices_S16x4096_S1x4096_15_0) : (⟨S16x4096, .f32⟩ : BufTy).Contents (Elt F) → (⟨S1x4096, .f32⟩ : BufTy).Contents (Elt F)),
    reshape main_v106 main_v107 rfl shapeCasts_S1x4096_S4096,
    unary main_v107 main_v108 (broadcastInDim S1x4096 ![1] bcast_S4096_S1x4096_1 : (⟨S4096, .f32⟩ : BufTy).Contents (Elt F) → (⟨S1x4096, .f32⟩ : BufTy).Contents (Elt F)),
    TRef.unary (TRef.of (T := ⟨S8192x4096, .f32⟩) main_arg0) (TRef.of (T := ⟨S8192x4080, .f32⟩) main_call15_v0) (extractStridedSlice S8192x4080 ![0, 16] · slices_S8192x4096_S8192x4080_0_16),
    TRef.unary (TRef.of (T := ⟨S8192x4096, .f32⟩) main_arg0) (TRef.of (T := ⟨S8192x16, .f32⟩) main_call15_v1) (extractStridedSlice S8192x16 ![0, 0] · slices_S8192x4096_S8192x16_0_0),
    TRef.binary (TRef.of (T := ⟨S8192x4080, .f32⟩) main_call15_v0) (TRef.of (T := ⟨S8192x16, .f32⟩) main_call15_v1) (TRef.of (T := ⟨S8192x4096, .f32⟩) main_v109) (fun a b => concatenate S8192x4096 1 [⟨S8192x4080, a⟩, ⟨S8192x16, b⟩] concatenates_S8192x4080_S8192x16_S8192x4096_d1),
    unary main_v108 main_v110 (broadcastInDim S8192x4096 ![0, 1] bcast_S1x4096_S8192x4096_0_1 : (⟨S1x4096, .f32⟩ : BufTy).Contents (Elt F) → (⟨S8192x4096, .f32⟩ : BufTy).Contents (Elt F)),
    binary main_v110 main_v109 main_v111 (mulf : (⟨S8192x4096, .f32⟩ : BufTy).Contents (Elt F) → (⟨S8192x4096, .f32⟩ : BufTy).Contents (Elt F) → (⟨S8192x4096, .f32⟩ : BufTy).Contents (Elt F)),
    binary main_v105 main_v111 main_v112 (addf : (⟨S8192x4096, .f32⟩ : BufTy).Contents (Elt F) → (⟨S8192x4096, .f32⟩ : BufTy).Contents (Elt F) → (⟨S8192x4096, .f32⟩ : BufTy).Contents (Elt F)) ]

theorem tap15_fine : (opsTap15 : List (HloOp τ sig (Elt F))).Forall Fine :=
  ⟨⟨unary_bufs_sub .., rfl⟩, ⟨reshape_bufs_sub .., rfl⟩, ⟨unary_bufs_sub .., rfl⟩, ⟨unary_bufs_sub .., rfl⟩, ⟨unary_bufs_sub .., rfl⟩,
    ⟨binary_bufs_sub .., rfl⟩, ⟨unary_bufs_sub .., rfl⟩, ⟨binary_bufs_sub .., rfl⟩, ⟨binary_bufs_sub .., rfl⟩⟩

/-- The sum after taps 0 … 15, as a function of the two arguments. -/
def acc16 (x : XC F) (w : WC F) : XC F :=
  hostTap 15 slices_S16x4096_S1x4096_15_0 shapeCasts_S1x4096_S4096 bcast_S4096_S1x4096_1 bcast_S1x4096_S8192x4096_0_1
      slices_S8192x4096_S8192x4080_0_16 slices_S8192x4096_S8192x16_0_0 concatenates_S8192x4080_S8192x16_S8192x4096_d1
    (acc15 x w) x w

/-- Tap 15 from any contents `V`: the new sum's buffer holds the old sum's plus row 15 of the weights times the input
    rolled 16 lanes, and the two arguments are untouched. -/
theorem tap15_after (V : Valuation τ sig (Elt F)) :
    after opsTap15 V (Proc.devRef .tc main_v112)
      = hostTap 15 slices_S16x4096_S1x4096_15_0 shapeCasts_S1x4096_S4096 bcast_S4096_S1x4096_1 bcast_S1x4096_S8192x4096_0_1
      slices_S8192x4096_S8192x4080_0_16 slices_S8192x4096_S8192x16_0_0 concatenates_S8192x4080_S8192x16_S8192x4096_d1
          (V (Proc.devRef .tc main_v105)) (V (Proc.devRef .tc main_arg0)) (V (Proc.devRef .tc main_arg1))
    ∧ after opsTap15 V (Proc.devRef .tc main_arg0) = V (Proc.devRef .tc main_arg0)
    ∧ after opsTap15 V (Proc.devRef .tc main_arg1) = V (Proc.devRef .tc main_arg1) := by
  refine ⟨?_, ?_, ?_⟩ <;> after_results_simp <;> rfl

/-- The invariant through tap 15: if `V` holds the sum so far of the arguments as they were at the start (`V₀`) and those
    arguments, the contents after tap 15 hold the next sum and the arguments still. -/
theorem upTo16 (V₀ V : Valuation τ sig (Elt F))
    (h : V (Proc.devRef .tc main_v105) = acc15 (V₀ (Proc.devRef .tc main_arg0)) (V₀ (Proc.devRef .tc main_arg1))
      ∧ V (Proc.devRef .tc main_arg0) = V₀ (Proc.devRef .tc main_arg0)
      ∧ V (Proc.devRef .tc main_arg1) = V₀ (Proc.devRef .tc main_arg1)) :
    after opsTap15 V (Proc.devRef .tc main_v112) = acc16 (V₀ (Proc.devRef .tc main_arg0)) (V₀ (Proc.devRef .tc main_arg1))
    ∧ after opsTap15 V (Proc.devRef .tc main_arg0) = V₀ (Proc.devRef .tc main_arg0)
    ∧ after opsTap15 V (Proc.devRef .tc main_arg1) = V₀ (Proc.devRef .tc main_arg1) := by
  obtain ⟨hA, hx, hw⟩ := h
  refine ⟨?_, ?_, ?_⟩
  · rw [(tap15_after V).1, hA, hx, hw]; rfl
  · rw [(tap15_after V).2.1, hx]
  · rw [(tap15_after V).2.2, hw]

/-- On the extended reals the sum after taps 0 … 15 is, at row `b` and lane `d`, the sum before plus `w[15, d]` times the
    entry 16 lanes ahead of `d` in row `b`. -/
theorem acc16_apply (x : XC Ideal) (w : WC Ideal) (b : Fin 8192) (d : Fin 4096) :
    acc16 x w (ix2 b d) = acc15 x w (ix2 b d) + QuadEnhance.tap x w b d 15 16 := by
  unfold acc16
  exact hostTap_apply 15 (by decide) (by decide) (by decide) _ _ _ _ _ _ _ (acc15 x w) x w b d

end Cert.ReferenceIdeal.QuadRun

end
-- ==== Proof.RefRun.lean ====
/-
  The reference's run, read: every weakly fair execution of the reference ends with its result buffer holding
  `x · (1 + Σ_k w[k, ·] · x rolled k + 1 lanes)` — on the extended reals, `enhanced x w` — and its two arguments unchanged.

  The 147 operations are the head, the sixteen taps and the tail, in order (`ops`). The program prints them in two parts,
  the first ending two operations into tap 8; each part is the straight line of its operations (`main_part0_eq`,
  `main_part1_eq`), so the program is the straight line of `ops` (`main_eq`). Reading the operations' results from the
  contents `V₀` the device starts from, group by group, the invariant "the sum's buffer holds `acc‹k›` of the arguments as
  they were at the start, and the arguments are as they were" passes through every tap (`upTo1` … `upTo16`), and the
  tail multiplies the input by the last sum (`after_ops`). At an index, on the extended reals, the sums unfold to the
  constant plus the sixteen taps in order, which is `enhanced` (`result_eq`).
-/
import proofs.«174131_j47957604827151_1_alg».proof.Proof.RefTaps

noncomputable section

namespace Cert.ReferenceIdeal.QuadRun

open Cert.ReferenceIdeal Cert.ReferenceIdeal.Gen Idealize.ShloMosaic Idealize.ShloMosaic.TcCoe Idealize.SL.Sem Idealize.ShloMosaic.StableHlo
open Idealize.ShloMosaic.ValueIdx LaneRoll

variable {F : FTy → Type} [FloatOps F]

/-- The reference's 147 operations in order: the head, taps 0 … 15, the tail. -/
abbrev ops : List (HloOp τ sig (Elt F)) :=
  opsHead ++ (opsTap0 ++ (opsTap1 ++ (opsTap2 ++ (opsTap3 ++ (opsTap4 ++ (opsTap5 ++ (opsTap6 ++ (opsTap7 ++ (opsTap8 ++ (opsTap9
    ++ (opsTap10 ++ (opsTap11 ++ (opsTap12 ++ (opsTap13 ++ (opsTap14 ++ (opsTap15 ++ opsTail))))))))))))))))

/-- The operations of the program's first printed part: through the second operation of tap 8. -/
abbrev opsPart0 : List (HloOp τ sig (Elt F)) :=
  opsHead ++ (opsTap0 ++ (opsTap1 ++ (opsTap2 ++ (opsTap3 ++ (opsTap4 ++ (opsTap5 ++ (opsTap6 ++ (opsTap7 ++ opsTap8.take 2))))))))

/-- The operations of its second printed part: from the third operation of tap 8 on. -/
abbrev opsPart1 : List (HloOp τ sig (Elt F)) :=
  opsTap8.drop 2 ++ (opsTap9 ++ (opsTap10 ++ (opsTap11 ++ (opsTap12 ++ (opsTap13 ++ (opsTap14 ++ (opsTap15 ++ opsTail)))))))

set_option maxRecDepth 8192 in
set_option maxHeartbeats 4000000 in
theorem main_part0_eq (c : Dev nD) : main_part0 (F := F) c = seq opsPart0 := rfl

set_option maxRecDepth 8192 in
set_option maxHeartbeats 4000000 in
theorem main_part1_eq (c : Dev nD) : main_part1 (F := F) c = seq opsPart1 := rfl

set_option maxRecDepth 8192 in
theorem ops_eq : (ops : List (HloOp τ sig (Elt F))) = opsPart0 ++ opsPart1 := rfl

/-- The program is the straight line of its operations. -/
theorem main_eq (c : Dev nD) : main (F := F) c = seq ops := by
  have h : main (F := F) c = seq (opsPart0 ++ opsPart1) := by
    rw [seq_append, ← main_part0_eq c, ← main_part1_eq c]
    rfl
  exact h.trans (congrArg seq ops_eq.symm)

/-- Every operation is fine for the run's rule. -/
theorem ops_fine : ∀ op ∈ (ops : List (HloOp τ sig (Elt F))), Fine op := by
  intro op h
  simp only [ops, List.mem_append] at h
  rcases h with h | h | h | h | h | h | h | h | h | h | h | h | h | h | h | h | h | h
  exacts [List.forall_iff_forall_mem.mp head_fine op h, List.forall_iff_forall_mem.mp tap0_fine op h,
    List.forall_iff_forall_mem.mp tap1_fine op h, List.forall_iff_forall_mem.mp tap2_fine op h,
    List.forall_iff_forall_mem.mp tap3_fine op h, List.forall_iff_forall_mem.mp tap4_fine op h,
    List.forall_iff_forall_mem.mp tap5_fine op h, List.forall_iff_forall_mem.mp tap6_fine op h,
    List.forall_iff_forall_mem.mp tap7_fine op h, List.forall_iff_forall_mem.mp tap8_fine op h,
    List.forall_iff_forall_mem.mp tap9_fine op h, List.forall_iff_forall_mem.mp tap10_fine op h,
    List.forall_iff_forall_mem.mp tap11_fine op h, List.forall_iff_forall_mem.mp tap12_fine op h,
    List.forall_iff_forall_mem.mp tap13_fine op h, List.forall_iff_forall_mem.mp tap14_fine op h,
    List.forall_iff_forall_mem.mp tap15_fine op h, List.forall_iff_forall_mem.mp tail_fine op h]

/-- After all the operations, from contents `V₀`: the result buffer holds the input times the sum after sixteen taps,
    of the arguments as `V₀` has them, and the arguments are as `V₀` has them. -/
theorem after_ops (V₀ : Valuation τ sig (Elt F)) :
    after ops V₀ (Proc.devRef .tc main_v113)
      = mulf (V₀ (Proc.devRef .tc main_arg0) : XC F) (acc16 (V₀ (Proc.devRef .tc main_arg0)) (V₀ (Proc.devRef .tc main_arg1)))
    ∧ after ops V₀ (Proc.devRef .tc main_arg0) = V₀ (Proc.devRef .tc main_arg0)
    ∧ after ops V₀ (Proc.devRef .tc main_arg1) = V₀ (Proc.devRef .tc main_arg1) := by
  simp only [ops, StableHlo.after_append]
  obtain ⟨hA, hx, hw⟩ :=
    upTo16 V₀ _ (upTo15 V₀ _ (upTo14 V₀ _ (upTo13 V₀ _ (upTo12 V₀ _ (upTo11 V₀ _ (upTo10 V₀ _ (upTo9 V₀ _
      (upTo8 V₀ _ (upTo7 V₀ _ (upTo6 V₀ _ (upTo5 V₀ _ (upTo4 V₀ _ (upTo3 V₀ _ (upTo2 V₀ _ (upTo1 V₀ _ (head_step V₀))))))))))))))))
  refine ⟨?_, ?_, ?_⟩
  · rw [(tail_after _).1, hA, hx]
  · rw [(tail_after _).2.1, hx]
  · rw [(tail_after _).2.2, hw]

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of the
    reference terminates with its result at the input times the sum after sixteen taps and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v113)
        = mulf (m ((c.tc : Thread nD τ).loc main_arg0) : XC F) (acc16 (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v113).trans (after_ops _).1, (h c main_arg0).trans (after_ops _).2.1,
      (h c main_arg1).trans (after_ops _).2.2⟩)
    (run_seq scopedRefs_eq scopedSems_eq defs main (fun _ => ops) main_eq
      (fun _ => List.forall_iff_forall_mem.mpr fun op h => (ops_fine op h).1) m ρ (fun _ op h => (ops_fine op h).2))

/-! ## The result on the extended reals -/

/-- The constant array reads the constant's word everywhere. -/
theorem acc0_apply (x : XC Ideal) (w : WC Ideal) (b : Fin 8192) (d : Fin 4096) : acc0 x w (ix2 b d) = QuadEnhance.start := by
  unfold acc0
  exact broadcastInDim_apply ![] bcast_S_S8192x4096 _ (ix2 b d) ix0 (fun a => a.elim0)

/-- The input times the sum after sixteen taps is `enhanced`: at an index the sums unfold to the constant plus the taps in
    order. -/
theorem result_eq (x : XC Ideal) (w : WC Ideal) : mulf x (acc16 x w) = QuadEnhance.enhanced x w := by
  funext i
  obtain ⟨b, d, rfl⟩ : ∃ (b : Fin 8192) (d : Fin 4096), i = ix2 b d := ⟨i 0, i 1, eq_ix2 i⟩
  rw [mulf_apply, acc16_apply, acc15_apply, acc14_apply, acc13_apply, acc12_apply, acc11_apply, acc10_apply, acc9_apply,
    acc8_apply, acc7_apply, acc6_apply, acc5_apply, acc4_apply, acc3_apply, acc2_apply, acc1_apply, acc0_apply]
  rfl

/-- The reference's run on the extended reals: its result at `enhanced` of its arguments, the arguments unchanged. -/
theorem run_enhanced (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v113)
        = QuadEnhance.enhanced (m ((c.tc : Thread nD τ).loc main_arg0) : XC Ideal) (m ((c.tc : Thread nD τ).loc main_arg1) : WC Ideal)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result_eq _ _), (h c).2⟩) (run (F := Ideal) m ρ)

end Cert.ReferenceIdeal.QuadRun

end
-- ==== Proof.lean ====
/-
  The kernel and its reference compute the same array on the extended reals.

  Both take a matrix `x` of 8192 rows and 4096 lanes and a matrix `w` of 16 rows of weights over the lanes, and return

      z[b, d] = x[b, d] · (1 + Σ_{k = 0..15} w[k, d] · x[b, (d + k + 1) mod 4096]),

  the sum taken in the same order on both sides (`Proof/Spec.lean`: `enhanced x w`). They differ in how "the entry `k + 1`
  lanes ahead, around the end of the row" is spelt: the kernel rotates the lanes of its block of 256 rows by
  `4096 − (k + 1)`, the reference puts the lanes from `k + 1` on in front of the first `k + 1` lanes; both read lane
  `(d + k + 1) mod 4096` (`Proof/LibLaneRoll.lean`). The kernel's result array is `enhanced x w` because each of its 32 grid
  points writes rows `256 t … 256 t + 255` of it and a row of the result reads only that row of `x`
  (`Proof/KernelValue.lean`, over the generated frame run and block-by-block value leg); the reference's is, by reading
  its 147 host operations group by group (`Proof/RefBase.lean`, `Proof/RefTaps.lean`, `Proof/RefRun.lean`). No law of
  arithmetic beyond that reading is needed, so the precondition is never opened. The frames of the two kernel programs
  are the generated ones; the reference's frame is its run with the result dropped; the idealization rewrote nothing.
-/
import proofs.«174131_j47957604827151_1_alg».proof.Defs
import proofs.«174131_j47957604827151_1_alg».proof.Proof.Gen.Kernel
import proofs.«174131_j47957604827151_1_alg».proof.Proof.Gen.Kernel.Skeleton
import proofs.«174131_j47957604827151_1_alg».proof.Proof.Gen.Kernel.Launch
import proofs.«174131_j47957604827151_1_alg».proof.Proof.Gen.Kernel.Points
import proofs.«174131_j47957604827151_1_alg».proof.Proof.Gen.Kernel.Frame
import proofs.«174131_j47957604827151_1_alg».proof.Proof.Gen.KernelIdeal
import proofs.«174131_j47957604827151_1_alg».proof.Proof.Gen.KernelIdeal.Skeleton
import proofs.«174131_j47957604827151_1_alg».proof.Proof.Gen.KernelIdeal.Launch
import proofs.«174131_j47957604827151_1_alg».proof.Proof.Gen.KernelIdeal.Points
import proofs.«174131_j47957604827151_1_alg».proof.Proof.Gen.KernelIdeal.Frame
import proofs.«174131_j47957604827151_1_alg».proof.Proof.Gen.ReferenceIdeal
import proofs.«174131_j47957604827151_1_alg».proof.Proof.Gen.Pre_finite_inputs
import proofs.«174131_j47957604827151_1_alg».proof.Proof.Gen.KernelIdeal.Value
import proofs.«174131_j47957604827151_1_alg».proof.Proof.KernelValue
import proofs.«174131_j47957604827151_1_alg».proof.Proof.RefRun
import Idealize.ShloMosaic.Adequacy
import Idealize.ShloMosaic.Init

noncomputable section

namespace Cert.Proof

open Idealize.ShloMosaic Idealize.SL.Sem

/-- The kernel at the word level runs and leaves its arguments: the generated frame. -/
theorem frame_kernel : Cert.frame_Kernel := fun m ρ _ => Cert.Kernel.Gen.frame m ρ

/-- The idealized kernel runs and leaves its arguments: the generated frame. -/
theorem frame_kernelIdeal : Cert.frame_KernelIdeal := fun m ρ _ => Cert.KernelIdeal.Gen.frame m ρ

/-- The reference runs and leaves its arguments: its run, the result dropped. -/
theorem frame_referenceIdeal : Cert.frame_ReferenceIdeal := fun m ρ _ =>
  (θ_run Cert.ReferenceIdeal.defs _ _).mono (fun _ h c => (h c).2) (Cert.ReferenceIdeal.QuadRun.run (F := Ideal) m ρ)

/-- The idealization rewrote no operation. -/
theorem preserves : Cert.preserves_Kernel_KernelIdeal := trivial

/-- From memories that agree on the two arguments both programs end with their result at `enhanced` of those arguments. -/
theorem algebraic : Cert.algebraic_KernelIdeal_ReferenceIdeal := by
  intro m ρ m' ρ' _ hagree
  refine ⟨_, Cert.KernelIdeal.QuadValue.run m ρ, ?_⟩
  refine (θ_run Cert.ReferenceIdeal.defs _ _).mono (fun _ h c => ⟨(h c).1.trans ?_, (h c).2⟩)
    (Cert.ReferenceIdeal.QuadRun.run_enhanced m' ρ')
  rw [(hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
